-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S4x1000000 : Shape := ⟨2, ![4, 1000000]⟩
abbrev S64x64 : Shape := ⟨2, ![64, 64]⟩
abbrev S256x64 : Shape := ⟨2, ![256, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S4x1000000 : S_.BroadcastsInDim S4x1000000 (![] : Fin 0 → Fin S4x1000000.rank)
  reducesTo_S4x1000000_S_d0_1 : S4x1000000.ReducesTo [0, 1] S_

variable [Facts]

def fn_part2 {F : FTy → Type} [FloatOps F] (main_arg3 : IVec S4x1000000 32) (main_v33 : IVec S_ 1) : IVec S_ 1 :=
  let main_c_12 : IVec S_ 32 := constantI S_ 32 4294917296#32
  let main_v34 : IVec S4x1000000 32 := broadcastInDim S4x1000000 ![] bcast_S_S4x1000000 main_c_12
  let main_v35 : IVec S4x1000000 1 := cmpi .sge main_arg3 main_v34
  let main_c_13 : IVec S_ 32 := constantI S_ 32 50000#32
  let main_v36 : IVec S4x1000000 32 := broadcastInDim S4x1000000 ![] bcast_S_S4x1000000 main_c_13
  let main_v37 : IVec S4x1000000 1 := cmpi .slt main_arg3 main_v36
  let main_v38 : IVec S4x1000000 1 := andi main_v35 main_v37
  let main_c_14 : IVec S_ 1 := constantI S_ 1 1#1
  let main_v39 : IVec S_ 1 := (fun x v => Host.reduce IntOp.andi x v reducesTo_S4x1000000_S_d0_1 h_S_) main_v38 main_c_14
  let main_v40 : IVec S_ 1 := andi main_v33 main_v39
  main_v40

def fn_part1 {F : FTy → Type} [FloatOps F] (main_arg3 : IVec S4x1000000 32) (main_arg5 : FVec F S64x64 .f32) (main_arg6 : FVec F S64x64 .f32) (main_arg7 : FVec F S256x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg3 main_v33

def fn {F : FTy → Type} [FloatOps F] (main_arg0 : FVec F S50000x64 .f32) (main_arg1 : FVec F S50000x64 .f32) (main_arg2 : FVec F S50000x64 .f32) (main_arg3 : IVec S4x1000000 32) (main_arg4 : FVec F S64x64 .f32) (main_arg5 : FVec F S64x64 .f32) (main_arg6 : FVec F S64x64 .f32) (main_arg7 : FVec F S256x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg3 main_arg5 main_arg6 main_arg7 main_v13 main_v16
-- ==== Kernel.lean ====
abbrev S50000x64 : Shape := ⟨2, ![50000, 64]⟩
abbrev S4x1000000 : Shape := ⟨2, ![4, 1000000]⟩
abbrev S64x64 : Shape := ⟨2, ![64, 64]⟩
abbrev S256x64 : Shape := ⟨2, ![256, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S8000x64 : Shape := ⟨2, ![8000, 64]⟩

abbrev nBuf : Space → Nat
  | .hbm => 125
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S4x1000000, .i32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S256x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .bf16⟩
  | .hbm, ⟨14, _⟩ => ⟨S64x64, .f32⟩
  | .hbm, ⟨15, _⟩ => ⟨S64x64, .bf16⟩
  | .hbm, ⟨16, _⟩ => ⟨S64x64, .f32⟩
  | .hbm, ⟨17, _⟩ => ⟨S64x64, .bf16⟩
  | .hbm, ⟨18, _⟩ => ⟨S64x64, .f32⟩
  | .hbm, ⟨19, _⟩ => ⟨S64x64, .bf16⟩
  | .hbm, ⟨20, _⟩ => ⟨S1x1000000, .i32⟩
  | .hbm, ⟨21, _⟩ => ⟨S1000000, .i32⟩
  | .hbm, ⟨22, _⟩ => ⟨S1x1000000, .i32⟩
  | .hbm, ⟨23, _⟩ => ⟨S1000000, .i32⟩
  | .hbm, ⟨24, _⟩ => ⟨S1x1000000, .i32⟩
  | .hbm, ⟨25, _⟩ => ⟨S1000000, .i32⟩
  | .hbm, ⟨26, _⟩ => ⟨S1x1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1, .i32⟩
  | .hbm, ⟨37, _⟩ => ⟨S_, .i32⟩
  | .hbm, ⟨38, _⟩ => ⟨S1000000x1, .i32⟩
  | .hbm, ⟨39, _⟩ => ⟨S1000000x1, .i1⟩
  | .hbm, ⟨40, _⟩ => ⟨S1x1, .i32⟩
  | .hbm, ⟨41, _⟩ => ⟨S1000000x1, .i32⟩
  | .hbm, ⟨42, _⟩ => ⟨S1000000x1, .i1⟩
  | .hbm, ⟨43, _⟩ => ⟨S1000000x1, .i1⟩
  | .hbm, ⟨44, _⟩ => ⟨S_, .i1⟩
  | .hbm, ⟨45, _⟩ => ⟨S1000000, .i1⟩
  | .hbm, ⟨46, _⟩ => ⟨S1000000x64, .f32⟩
  | .hbm, ⟨47, _⟩ => ⟨S1000000x64, .i1⟩
  | .hbm, ⟨48, _⟩ => ⟨S_, .f32⟩
  | .hbm, ⟨49, _⟩ => ⟨S1000000x64, .f32⟩
  | .hbm, ⟨50, _⟩ => ⟨S1000000x64, .f32⟩
  | .hbm, ⟨51, _⟩ => ⟨S1000000x64, .bf16⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1, .i32⟩
  | .hbm, ⟨61, _⟩ => ⟨S_, .i32⟩
  | .hbm, ⟨62, _⟩ => ⟨S1000000x1, .i32⟩
  | .hbm, ⟨63, _⟩ => ⟨S1000000x1, .i1⟩
  | .hbm, ⟨64, _⟩ => ⟨S1x1, .i32⟩
  | .hbm, ⟨65, _⟩ => ⟨S1000000x1, .i32⟩
  | .hbm, ⟨66, _⟩ => ⟨S1000000x1, .i1⟩
  | .hbm, ⟨67, _⟩ => ⟨S1000000x1, .i1⟩
  | .hbm, ⟨68, _⟩ => ⟨S_, .i1⟩
  | .hbm, ⟨69, _⟩ => ⟨S1000000, .i1⟩
  | .hbm, ⟨70, _⟩ => ⟨S1000000x64, .f32⟩
  | .hbm, ⟨71, _⟩ => ⟨S1000000x64, .i1⟩
  | .hbm, ⟨72, _⟩ => ⟨S_, .f32⟩
  | .hbm, ⟨73, _⟩ => ⟨S1000000x64, .f32⟩
  | .hbm, ⟨74, _⟩ => ⟨S1000000x64, .f32⟩
  | .hbm, ⟨75, _⟩ => ⟨S1000000x64, .bf16⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1, .i32⟩
  | .hbm, ⟨85, _⟩ => ⟨S_, .i32⟩
  | .hbm, ⟨86, _⟩ => ⟨S1000000x1, .i32⟩
  | .hbm, ⟨87, _⟩ => ⟨S1000000x1, .i1⟩
  | .hbm, ⟨88, _⟩ => ⟨S1x1, .i32⟩
  | .hbm, ⟨89, _⟩ => ⟨S1000000x1, .i32⟩
  | .hbm, ⟨90, _⟩ => ⟨S1000000x1, .i1⟩
  | .hbm, ⟨91, _⟩ => ⟨S1000000x1, .i1⟩
  | .hbm, ⟨92, _⟩ => ⟨S_, .i1⟩
  | .hbm, ⟨93, _⟩ => ⟨S1000000, .i1⟩
  | .hbm, ⟨94, _⟩ => ⟨S1000000x64, .f32⟩
  | .hbm, ⟨95, _⟩ => ⟨S1000000x64, .i1⟩
  | .hbm, ⟨96, _⟩ => ⟨S_, .f32⟩
  | .hbm, ⟨97, _⟩ => ⟨S1000000x64, .f32⟩
  | .hbm, ⟨98, _⟩ => ⟨S1000000x64, .f32⟩
  | .hbm, ⟨99, _⟩ => ⟨S1000000x64, .bf16⟩
  | .hbm, ⟨100, _⟩ => ⟨S_, .i32⟩
  | .hbm, ⟨101, _⟩ => ⟨S1000000, .i32⟩
  | .hbm, ⟨102, _⟩ => ⟨S1000000, .i1⟩
  | .hbm, ⟨103, _⟩ => ⟨S_, .i32⟩
  | .hbm, ⟨104, _⟩ => ⟨S1000000, .i32⟩
  | .hbm, ⟨105, _⟩ => ⟨S1000000, .i32⟩
  | .hbm, ⟨106, _⟩ => ⟨S1000000, .i32⟩
  | .hbm, ⟨107, _⟩ => ⟨S1000000x1, .i32⟩
  | .hbm, ⟨108, _⟩ => ⟨S1, .i32⟩
  | .hbm, ⟨109, _⟩ => ⟨S_, .i32⟩
  | .hbm, ⟨110, _⟩ => ⟨S1000000x1, .i32⟩
  | .hbm, ⟨111, _⟩ => ⟨S1000000x1, .i1⟩
  | .hbm, ⟨112, _⟩ => ⟨S1x1, .i32⟩
  | .hbm, ⟨113, _⟩ => ⟨S1000000x1, .i32⟩
  | .hbm, ⟨114, _⟩ => ⟨S1000000x1, .i1⟩
  | .hbm, ⟨115, _⟩ => ⟨S1000000x1, .i1⟩
  | .hbm, ⟨116, _⟩ => ⟨S_, .i1⟩
  | .hbm, ⟨117, _⟩ => ⟨S1000000, .i1⟩
  | .hbm, ⟨118, _⟩ => ⟨S1000000x64, .f32⟩
  | .hbm, ⟨119, _⟩ => ⟨S1000000x64, .i1⟩
  | .hbm, ⟨120, _⟩ => ⟨S_, .f32⟩
  | .hbm, ⟨121, _⟩ => ⟨S1000000x64, .f32⟩
  | .hbm, ⟨122, _⟩ => ⟨S1000000x64, .f32⟩
  | .hbm, ⟨123, _⟩ => ⟨S1000000x64, .bf16⟩
  | .hbm, ⟨124, _⟩ => ⟨S1000000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S8000x64, .bf16⟩
  | .local _ .vmem, ⟨7, _⟩ => ⟨S8000x64, .bf16⟩
  | .local _ .vmem, ⟨8, _⟩ => ⟨S64x64, .bf16⟩
  | .local _ .vmem, ⟨9, _⟩ => ⟨S64x64, .bf16⟩
  | .local _ .vmem, ⟨10, _⟩ => ⟨S64x64, .bf16⟩
  | .local _ .vmem, ⟨11, _⟩ => ⟨S64x64, .bf16⟩
  | .local _ .vmem, ⟨12, _⟩ => ⟨S8000x64, .f32⟩
  | .local _ .vmem, ⟨13, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v20 : Ref sig .tc := ⟨.hbm, 50, rfl⟩
abbrev main_v21 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v22 : Ref sig .tc := ⟨.hbm, 74, rfl⟩
abbrev main_v23 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v24 : Ref sig .tc := ⟨.hbm, 98, rfl⟩
abbrev main_v25 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  bitsLt_bf16_f32 : FTy.bits .bf16 < FTy.bits .f32
  slices_S4x1000000_S1x1000000_0_0 : S4x1000000.Slices ![0, 0] S1x1000000
  shapeCasts_S1x1000000_S1000000 : S1x1000000.ShapeCasts S1000000
  slices_S4x1000000_S1x1000000_1_0 : S4x1000000.Slices ![1, 0] S1x1000000
  slices_S4x1000000_S1x1000000_2_0 : S4x1000000.Slices ![2, 0] S1x1000000
  slices_S4x1000000_S1x1000000_3_0 : S4x1000000.Slices ![3, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S64x64_S64x64_S64x64_1_0_0_1_n_n_wf : DotDims.WF S64x64 S64x64 S64x64 [1] [0] [0] [1] [] []
  gather_S50000x64_S1000000x1_S1000000x64_1_0_n_n_0_1_164_wf : GatherDims.WF S50000x64 S1000000x1 S1000000x64 [1] [0] [] [0] [] 1 ![1, 64]
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .bf16 = 32 ∨ (Rect.block (s := S1000000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .bf16 = 32 ∨ (Rect.block (s := S1000000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .bf16 = 32 ∨ (Rect.block (s := S1000000x64) S8000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1000000x64.size a
  hwx0_3 : ∀ i : grid0.Coords, EltTy.bits .bf16 = 32 ∨ (Rect.block (s := S1000000x64) S8000x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x64.size a ≤ S1000000x64.size a
  hwx0_8 : ∀ i : grid0.Coords, EltTy.bits .f32 = 32 ∨ (Rect.block (s := S1000000x64) S8000x64.size (cc0_transform_8 i) (hinb0_8 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v21) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S8000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S8000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S4x1000000 : Shape := ⟨2, ![4, 1000000]⟩
abbrev S64x64 : Shape := ⟨2, ![64, 64]⟩
abbrev S256x64 : Shape := ⟨2, ![256, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x256 : Shape := ⟨2, ![1000000, 256]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S4x1000000, .i32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S256x64, .f32⟩
  | .hbm, ⟨8, _⟩ => ⟨S50000x64, .f32⟩
  | .hbm, ⟨9, _⟩ => ⟨S50000x64, .f32⟩
  | .hbm, ⟨10, _⟩ => ⟨S50000x64, .f32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S1x1000000, .i32⟩
  | .hbm, ⟨23, _⟩ => ⟨S1000000, .i32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S1x1000000, .i32⟩
  | .hbm, ⟨34, _⟩ => ⟨S1000000, .i32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S1x1000000, .i32⟩
  | .hbm, ⟨45, _⟩ => ⟨S1000000, .i32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S1000000x256, .f32⟩
  | .hbm, ⟨56, _⟩ => ⟨S1000000x64, .f32⟩
  | .hbm, ⟨57, _⟩ => ⟨S_, .f32⟩
  | .hbm, ⟨58, _⟩ => ⟨S_, .f32⟩
  | .hbm, ⟨59, _⟩ => ⟨S1000000x64, .f32⟩
  | .hbm, ⟨60, _⟩ => ⟨S1000000x64, .i1⟩
  | .hbm, ⟨61, _⟩ => ⟨S_, .f32⟩
  | .hbm, ⟨62, _⟩ => ⟨S1000000x64, .f32⟩
  | .hbm, ⟨63, _⟩ => ⟨S1000000x64, .f32⟩
  | .hbm, ⟨64, _⟩ => ⟨S1000000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  slices_S4x1000000_S1x1000000_0_0 : S4x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S4x1000000_S1x1000000_1_0 : S4x1000000.Slices ![1, 0] S1x1000000
  slices_S4x1000000_S1x1000000_2_0 : S4x1000000.Slices ![2, 0] S1x1000000
  slices_S4x1000000_S1x1000000_3_0 : S4x1000000.Slices ![3, 0] S1x1000000
  concatenates_S1000000x64_S1000000x64_S1000000x64_S1000000x64_S1000000x256_d1 : Shape.Concatenates [S1000000x64, S1000000x64, S1000000x64, S1000000x64] S1000000x256 1
  bcast_S_S1000000x64 : S_.BroadcastsInDim S1000000x64 (![] : Fin 0 → Fin S1000000x64.rank)
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  dot_S1000000x256_S256x64_S1000000x64_1_0_0_1_n_n_wf : DotDims.WF S1000000x256 S256x64 S1000000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf

class Facts : Prop extends Facts₀ where

variable [Facts]
-- ==== Proof.EdgeScore.lean ====
/-
  The mathematics of the edge score, with no program in sight.

  Every edge `e` of a four-column adjacency table reads one row of a node table per column `s`: the tax payer
  table for columns 0 and 1, the person table for column 2, the item table for column 3. A raw index `v` is read as
  NumPy reads it — `v + 50000` when `v < 0` — and then, as a signed number, clamped into `[0, 49999]` (`row`).
  The score before the activation is

      pre e j = Σ_s Σ_d (Σ_c T_s[row s e, c] · P_s[c, d]) · W[64 s + d, j]

  (project the table, gather, concatenate the four 64-wide pieces, multiply by `W`: `accProj`), which for FINITE
  entries is also

      Σ_s Σ_c T_s[row s e, c] · (Σ_d P_s[c, d] · W[64 s + d, j])

  (gather first, against the four folded 64×64 products `P_s · W_s`: `accFold`): a finite double sum of products of
  reals may be regrouped and its order of summation exchanged. On the extended reals the exchange needs the entries
  finite, since `x · (a + b) = x · a + x · b` fails at infinities. The result is the leaky rectifier of `pre`;
  its two spellings, `a > 0` and `a ≥ 0`, differ only at `a = 0`, where both branches are `0`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.EdgeScore

open Idealize.ShloMosaic Idealize.ShloMosaic.ValueIdx

/-! ## Shapes -/

abbrev SNode : Shape := ⟨2, ![50000, 64]⟩
abbrev SAdj : Shape := ⟨2, ![4, 1000000]⟩
abbrev SProj : Shape := ⟨2, ![64, 64]⟩
abbrev SWeight : Shape := ⟨2, ![256, 64]⟩
abbrev SOut : Shape := ⟨2, ![1000000, 64]⟩

/-! ## The row an edge reads -/

/-- A raw index with NumPy's wrap of a negative one: `v + 50000` when `v < 0` (signed), else `v`. -/
def wrap (v : BitVec 32) : BitVec 32 := Scalar.select (IntOp.cmpi .slt v 0#32) (IntOp.addi v 50000#32) v

/-- The wrapped index read as a signed number and clamped into the table's rows. -/
def clampRow (v : BitVec 32) : Fin 50000 := ⟨min (wrap v).toInt.toNat 49999, by omega⟩

/-- The table row edge `e` reads in column `s`. -/
def row (adj : IVec SAdj 32) (s : Fin 4) (e : Fin 1000000) : Fin 50000 := clampRow (adj (ix2 s e))

/-- Every raw index is a valid NumPy index into 50000 rows. -/
def InRange (adj : IVec SAdj 32) : Prop := ∀ i, -50000 ≤ (adj i).toInt ∧ (adj i).toInt < 50000

theorem wrap_toInt (v : BitVec 32) (h : -50000 ≤ v.toInt ∧ v.toInt < 50000) :
    0 ≤ (wrap v).toInt ∧ (wrap v).toInt ≤ 49999 := by
  unfold wrap Scalar.select IntOp.cmpi IntOp.addi
  by_cases hneg : v.toInt < 0
  · have hs : v.slt 0#32 = true := by rw [BitVec.slt_iff_toInt_lt]; simpa using hneg
    rw [hs]
    simp only [BitVec.ofBool_true, if_true]
    rw [BitVec.toInt_add]
    have h5 : (50000#32 : BitVec 32).toInt = 50000 := by decide
    rw [h5]
    have : (v.toInt + 50000).bmod (2 ^ 32) = v.toInt + 50000 := by
      apply Int.bmod_eq_of_le <;> omega
    omega
  · have hs : v.slt 0#32 = false := by
      rw [Bool.eq_false_iff, Ne, BitVec.slt_iff_toInt_lt]; simpa using hneg
    rw [hs]
    simp only [BitVec.ofBool_false]
    rw [if_neg (by decide)]
    omega

/-- In range, the wrapped index passes both of the kernel's bound tests. -/
theorem wrap_bounds (v : BitVec 32) (h : -50000 ≤ v.toInt ∧ v.toInt < 50000) :
    IntOp.cmpi .sge (wrap v) 0#32 = 1#1 ∧ IntOp.cmpi .sle (wrap v) 49999#32 = 1#1 := by
  obtain ⟨h0, h1⟩ := wrap_toInt v h
  unfold IntOp.cmpi
  constructor
  · have : (0#32 : BitVec 32).sle (wrap v) = true := by
      rw [BitVec.sle_iff_toInt_le]; simpa using h0
    simp only [this, BitVec.ofBool_true]
    rfl
  · have h4 : (49999#32 : BitVec 32).toInt = 49999 := by decide
    have : (wrap v).sle 49999#32 = true := by
      rw [BitVec.sle_iff_toInt_le, h4]; exact h1
    simp only [this, BitVec.ofBool_true]
    rfl

/-! ## The two groupings of the score before the activation -/

/-- Project, gather, concatenate, multiply by `W`: `Σ_s Σ_d (Σ_c g s c · P s c d) · W s d`. -/
def accProj (g : Fin 4 → Fin 64 → EReal) (P : Fin 4 → Fin 64 → Fin 64 → EReal) (W : Fin 4 → Fin 64 → EReal) : EReal :=
  ∑ s : Fin 4, ∑ d : Fin 64, (∑ c : Fin 64, g s c * P s c d) * W s d

/-- One column's share against its folded product: `Σ_c g c · (Σ_d P c d · W d)`. -/
def foldTerm (g : Fin 64 → EReal) (P : Fin 64 → Fin 64 → EReal) (W : Fin 64 → EReal) : EReal :=
  ∑ c : Fin 64, g c * ∑ d : Fin 64, P c d * W d

/-- Gather first, against the four folded products, added in the kernel's order. -/
def accFold (g : Fin 4 → Fin 64 → EReal) (P : Fin 4 → Fin 64 → Fin 64 → EReal) (W : Fin 4 → Fin 64 → EReal) : EReal :=
  foldTerm (g 0) (P 0) (W 0) + foldTerm (g 1) (P 1) (W 1) + foldTerm (g 2) (P 2) (W 2) + foldTerm (g 3) (P 3) (W 3)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem foldTerm_real (g : Fin 64 → ℝ) (P : Fin 64 → Fin 64 → ℝ) (W : Fin 64 → ℝ) :
    foldTerm (fun c => (g c : EReal)) (fun c d => (P c d : EReal)) (fun d => (W d : EReal))
      = ∑ d : Fin 64, (∑ c : Fin 64, (g c : EReal) * (P c d : EReal)) * (W d : EReal) := by
  unfold foldTerm
  simp only [← EReal.coe_mul, ← coe_sum]
  congr 1
  simp only [Finset.mul_sum, Finset.sum_mul]
  rw [Finset.sum_comm]
  refine Finset.sum_congr rfl fun d _ => Finset.sum_congr rfl fun c _ => ?_
  ring

/-- THE LAW that joins the two programs: for finite entries the two groupings are one number. -/
theorem accFold_eq_accProj (g : Fin 4 → Fin 64 → EReal) (P : Fin 4 → Fin 64 → Fin 64 → EReal) (W : Fin 4 → Fin 64 → EReal)
    (hg : ∀ s c, ∃ r : ℝ, g s c = r) (hP : ∀ s c d, ∃ r : ℝ, P s c d = r) (hW : ∀ s d, ∃ r : ℝ, W s d = r) :
    accFold g P W = accProj g P W := by
  choose g' hg' using hg
  choose P' hP' using hP
  choose W' hW' using hW
  obtain rfl : g = fun s c => (g' s c : EReal) := funext fun s => funext fun c => hg' s c
  obtain rfl : P = fun s c d => (P' s c d : EReal) := funext fun s => funext fun c => funext fun d => hP' s c d
  obtain rfl : W = fun s d => (W' s d : EReal) := funext fun s => funext fun d => hW' s d
  unfold accFold accProj
  rw [Fin.sum_univ_four]
  rw [foldTerm_real (g' 0) (P' 0) (W' 0), foldTerm_real (g' 1) (P' 1) (W' 1), foldTerm_real (g' 2) (P' 2) (W' 2),
    foldTerm_real (g' 3) (P' 3) (W' 3)]

/-- Row `64 s + d` of the weight: piece `s`, offset `d`. -/
def wrow (s : Fin 4) (d : Fin 64) : Fin 256 := ⟨64 * s.val + d.val, by omega⟩

/-- A sum over the 256 concatenated columns, piece by piece. -/
theorem sum_fin256 (f : Fin 256 → EReal) : ∑ k : Fin 256, f k = ∑ s : Fin 4, ∑ d : Fin 64, f (wrow s d) := by
  rw [← Fintype.sum_prod_type']
  refine (Equiv.sum_comp (finProdFinEquiv (m := 4) (n := 64)) f).symm.trans ?_
  refine Finset.sum_congr rfl fun x _ => congrArg f (Fin.ext ?_)
  show x.2.val + 64 * x.1.val = 64 * x.1.val + x.2.val
  omega

/-! ## The activation -/

/-- The slope `0.2` as the programs carry it: the f32 word, never evaluated. -/
abbrev slope : EReal := Ideal.ofBits .f32 0x3E4CCCCD#32

/-- The reference's spelling: `a` where `a ≥ 0`, else `slope · a`. -/
def leakyGe (a : EReal) : EReal := Scalar.select (Ideal.cmp .oge a 0) a (slope * a)

/-- The kernel's spelling: `a` where `a > 0`, else `slope · a`. -/
def leakyGt (a : EReal) : EReal := Scalar.select (Ideal.cmp .ogt a 0) a (slope * a)

/-- The two spellings differ only at `0`, where both branches are `0`. -/
theorem leakyGt_eq_leakyGe (a : EReal) : leakyGt a = leakyGe a := by
  unfold leakyGt leakyGe Scalar.select Ideal.cmp
  by_cases h0 : a = 0
  · subst h0; simp
  · by_cases hpos : (0 : EReal) < a
    · have hle : (0 : EReal) ≤ a := le_of_lt hpos
      simp [hpos, hle]
    · have hle : ¬ (0 : EReal) ≤ a := fun hle => hpos (lt_of_le_of_ne hle (Ne.symm h0))
      simp [hpos, hle]

/-! ## The result, as one function of the eight arguments -/

/-- The node table column `s` reads: tax payer, tax payer, person, item. -/
def table (T0 T1 T2 : SNode.Idx → EReal) : Fin 4 → SNode.Idx → EReal := ![T0, T0, T1, T2]

/-- The projection column `s` applies: company, company, person, item. -/
def proj (P0 P1 P2 : SProj.Idx → EReal) : Fin 4 → SProj.Idx → EReal := ![P0, P0, P1, P2]

/-- What edge `e` gathers in column `s`. -/
def gathered (T0 T1 T2 : SNode.Idx → EReal) (adj : IVec SAdj 32) (e : Fin 1000000) (s : Fin 4) (c : Fin 64) : EReal :=
  table T0 T1 T2 s (ix2 (row adj s e) c)

/-- The score of edge `e`, output column `j`, before the activation (the reference's grouping). -/
def preAt (T0 T1 T2 : SNode.Idx → EReal) (adj : IVec SAdj 32) (P0 P1 P2 : SProj.Idx → EReal) (W : SWeight.Idx → EReal)
    (e : Fin 1000000) (j : Fin 64) : EReal :=
  accProj (gathered T0 T1 T2 adj e) (fun s c d => proj P0 P1 P2 s (ix2 c d)) (fun s d => W (ix2 (wrow s d) j))

/-- The same in the kernel's grouping. -/
def preFoldAt (T0 T1 T2 : SNode.Idx → EReal) (adj : IVec SAdj 32) (P0 P1 P2 : SProj.Idx → EReal) (W : SWeight.Idx → EReal)
    (e : Fin 1000000) (j : Fin 64) : EReal :=
  accFold (gathered T0 T1 T2 adj e) (fun s c d => proj P0 P1 P2 s (ix2 c d)) (fun s d => W (ix2 (wrow s d) j))

/-- THE RESULT ARRAY: the leaky rectifier of the score, index by index. -/
def score (T0 T1 T2 : SNode.Idx → EReal) (adj : IVec SAdj 32) (P0 P1 P2 : SProj.Idx → EReal) (W : SWeight.Idx → EReal) :
    SOut.Idx → EReal :=
  fun i => leakyGe (preAt T0 T1 T2 adj P0 P1 P2 W (i 0) (i 1))

/-- Every entry of an array is a real number. -/
def Finite {s : Shape} (x : s.Idx → EReal) : Prop := ∀ i, ∃ r : ℝ, x i = r

/-- For finite tables, projections and weight, the kernel's grouping under the kernel's activation is the score. -/
theorem leakyGt_preFoldAt (T0 T1 T2 : SNode.Idx → EReal) (adj : IVec SAdj 32) (P0 P1 P2 : SProj.Idx → EReal) (W : SWeight.Idx → EReal)
    (hT0 : Finite T0) (hT1 : Finite T1) (hT2 : Finite T2) (hP0 : Finite P0) (hP1 : Finite P1) (hP2 : Finite P2) (hW : Finite W)
    (e : Fin 1000000) (j : Fin 64) :
    leakyGt (preFoldAt T0 T1 T2 adj P0 P1 P2 W e j) = score T0 T1 T2 adj P0 P1 P2 W (ix2 e j) := by
  show _ = leakyGe (preAt T0 T1 T2 adj P0 P1 P2 W e j)
  rw [leakyGt_eq_leakyGe]
  unfold preFoldAt preAt
  rw [accFold_eq_accProj]
  · intro s c
    unfold gathered table
    fin_cases s
    · exact hT0 _
    · exact hT0 _
    · exact hT1 _
    · exact hT2 _
  · intro s c d
    unfold proj
    fin_cases s
    · exact hP0 _
    · exact hP0 _
    · exact hP1 _
    · exact hP2 _
  · intro s d
    exact hW _

end Cert.EdgeScore

end
-- ==== Proof.PreFacts.lean ====
/-
  What the precondition says of the eight arguments: every entry of the seven float arrays is a real number
  (`|x| < +∞` on the extended reals leaves exactly the reals), and every raw index of the adjacency table is a valid
  NumPy index into 50000 rows, `-50000 ≤ v < 50000` as a signed number.
-/
import proofs.«429126_j58815282152047_1_alg».proof.Pre_finite_inputs
import proofs.«429126_j58815282152047_1_alg».proof.Proof.EdgeScore
import Idealize.ShloMosaic.Lib.ReduceAll
import Idealize.ShloMosaic.Lib.StableHlo.Predicate

noncomputable section

namespace Cert.PreFacts

open Idealize.ShloMosaic Idealize.ShloMosaic.ValueIdx Cert.EdgeScore

/-- The rank-0 shape has exactly one index: there is no axis to give a coordinate on. -/
instance : Subsingleton Cert.Pre_finite_inputs.S_.Idx := ⟨fun _ _ => funext fun d => d.elim0⟩

/-- The f32 word with exponent all ones and fraction zero, sign clear, denotes the top of the extended reals. -/
theorem inf_word : Ideal.ofBits .f32 0x7F800000#32 = (⊤ : EReal) := by simp [Ideal.ofBits, Ideal.ieee]

/-- On the extended reals the absolute value is max x (-x). It equals ⊤ at both ends, ⊤ and ⊥, and is a real
    at a real; so lying strictly below ⊤ leaves exactly the reals. -/
theorem real_of_abs_lt_top (x : EReal) (h : max x (-x) < ⊤) : ∃ r : ℝ, x = r := by
  induction x using EReal.rec with
  | bot => simp at h
  | coe r => exact ⟨r, rfl⟩
  | top => simp at h

/-- One entry: if the test |x| < +∞ answers 1, the entry is a real number. The test's word is the truth value
    of max x (-x) < ⊤. -/
theorem real_of_cmp (x : Ideal .f32)
    (h : FloatOps.cmpf .olt (FloatOps.hostAbsf x) (FloatOps.ofBits (F := Ideal) .f32 0x7F800000#32) = 1#1) :
    ∃ r : ℝ, (x : EReal) = r := by
  have h' : Ideal.cmp .olt (max (x : EReal) (-(x : EReal))) (Ideal.ofBits .f32 0x7F800000#32) = 1#1 := h
  rw [inf_word] at h'
  unfold Ideal.cmp at h'
  apply real_of_abs_lt_top
  by_contra hn
  simp [hn] at h'

/-- A conjunction of two masks that is 1 at an index has both masks 1 there. -/
theorem andi_at {s : Shape} {x y : IVec s 1} {i : s.Idx} (h : andi x y i = 1#1) : x i = 1#1 ∧ y i = 1#1 :=
  IntOp.andi_eq_one.1 h

/-- One float array: if the conjunction over ALL entries of |x| < +∞ is 1, every entry is a real number.
    A conjunction that came out 1 met only 1s, so the test holds entry by entry; the scalar +∞ spread over the
    array reads +∞ at every index. -/
theorem finite_of_all {s : Shape} {axes : List (Fin s.rank)}
    (hb : Cert.Pre_finite_inputs.S_.BroadcastsInDim s ![]) (hr : s.ReducesTo axes Cert.Pre_finite_inputs.S_)
    (hu : 0 < Cert.Pre_finite_inputs.S_.numel) (x : FVec Ideal s .f32)
    (e : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) : Finite x := by
  intro i
  exact real_of_cmp (x i) (Host.reduce_andi_all _ _ hr hu ix0 e i)

/-- The index array: if the conjunction over all entries of (v ≥ -50000 and v < 50000), both signed, is 1, then
    every entry lies in [-50000, 50000) as a signed number. The word 4294917296 is 2³² - 50000, which reads
    -50000 signed. -/
theorem inRange_of_all {s : Shape} {axes : List (Fin s.rank)}
    (hb : Cert.Pre_finite_inputs.S_.BroadcastsInDim s ![]) (hr : s.ReducesTo axes Cert.Pre_finite_inputs.S_)
    (hu : 0 < Cert.Pre_finite_inputs.S_.numel) (a : IVec s 32)
    (e : Host.reduce IntOp.andi
        (andi (cmpi .sge a (broadcastInDim s ![] hb (constantI Cert.Pre_finite_inputs.S_ 32 4294917296#32)))
          (cmpi .slt a (broadcastInDim s ![] hb (constantI Cert.Pre_finite_inputs.S_ 32 50000#32))))
        (constantI Cert.Pre_finite_inputs.S_ 1 1#1) hr hu ix0 = 1#1) (i : s.Idx) :
    -50000 ≤ (a i).toInt ∧ (a i).toInt < 50000 := by
  obtain ⟨h1, h2⟩ := andi_at (Host.reduce_andi_all _ _ hr hu ix0 e i)
  have h1' : IntOp.cmpi .sge (a i) 4294917296#32 = 1#1 := h1
  have h2' : IntOp.cmpi .slt (a i) 50000#32 = 1#1 := h2
  rw [IntOp.cmpi_sge] at h1'
  rw [IntOp.cmpi_slt] at h2'
  have c1 : (4294917296#32 : BitVec 32).toInt = -50000 := by decide
  have c2 : (50000#32 : BitVec 32).toInt = 50000 := by decide
  rw [c1] at h1'
  rw [c2] at h2'
  exact ⟨h1', h2'⟩

/-- The precondition, all ones, unpacked. -/
theorem of_pre [Cert.Pre_finite_inputs.Facts]
    (a0 a1 a2 : FVec Ideal SNode .f32) (a3 : IVec SAdj 32) (a4 a5 a6 : FVec Ideal SProj .f32) (a7 : FVec Ideal SWeight .f32)
    (h : Cert.Pre_finite_inputs.fn (F := Ideal) a0 a1 a2 a3 a4 a5 a6 a7 = fun _ => 1#1) :
    Finite a0 ∧ Finite a1 ∧ Finite a2 ∧ Finite a4 ∧ Finite a5 ∧ Finite a6 ∧ Finite a7 ∧ InRange a3 := by
  -- the result has one index; there the precondition is a conjunction of eight whole-array conjunctions
  have h0 := congrFun h ValueIdx.ix0
  dsimp only [Cert.Pre_finite_inputs.fn, Cert.Pre_finite_inputs.fn_part1, Cert.Pre_finite_inputs.fn_part2] at h0
  -- the conjunction nests to the left: peel the last conjunct each time
  obtain ⟨h0, e3⟩ := andi_at h0
  obtain ⟨h0, e7⟩ := andi_at h0
  obtain ⟨h0, e6⟩ := andi_at h0
  obtain ⟨h0, e5⟩ := andi_at h0
  obtain ⟨h0, e4⟩ := andi_at h0
  obtain ⟨h0, e2⟩ := andi_at h0
  obtain ⟨e0, e1⟩ := andi_at h0
  exact ⟨finite_of_all _ _ _ a0 e0, finite_of_all _ _ _ a1 e1, finite_of_all _ _ _ a2 e2, finite_of_all _ _ _ a4 e4,
    finite_of_all _ _ _ a5 e5, finite_of_all _ _ _ a6 e6, finite_of_all _ _ _ a7 e7, inRange_of_all _ _ _ a3 e3⟩

end Cert.PreFacts

end
-- ==== Proof.RefValue.lean ====
/-
  The reference's run, read back: it ends with its result array at `EdgeScore.score` of the eight arguments and the
  arguments unchanged.
-/
import proofs.«429126_j58815282152047_1_alg».proof.Proof.Gen.ReferenceIdeal
import proofs.«429126_j58815282152047_1_alg».proof.Proof.EdgeScore
import Idealize.ShloMosaic.Lib.StableHlo.Run
import Idealize.ShloMosaic.Lib.Pipeline.Value
import Idealize.ShloMosaic.Lib.StackMember

noncomputable section

namespace Cert.RefValue

open Cert.ReferenceIdeal Cert.ReferenceIdeal.Gen Idealize.ShloMosaic Idealize.ShloMosaic.TcCoe Idealize.SL.Sem
open Cert.EdgeScore

section Run

open Idealize.ShloMosaic.StableHlo

variable {F : FTy → Type} [FloatOps F]

/-- The reference's fifty-seven operations in order, the call of the leaky rectifier unfolded where it stands: the
    three projections; per adjacency column the slice, the reshape, the NumPy wrap of a negative index (zero, its
    broadcast, the comparison, 50000, its broadcast, the sum, the select), the index column and the gather; the
    concatenation, the product with the weight, the slope; then the rectifier's seven (zero, its broadcast, the
    comparison, the slope converted and broadcast, the product, and the select of the inner call). -/
abbrev ops : List (HloOp τ sig (Elt F)) :=
  [ binary main_arg0 main_arg4 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_arg1 main_arg5 main_v1 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_arg2 main_arg6 main_v2 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v3 ((extractStridedSlice S1x1000000 ![0, 0] · slices_S4x1000000_S1x1000000_0_0) : (⟨S4x1000000, .i32⟩ : BufTy).Contents (Elt F) → (⟨S1x1000000, .i32⟩ : BufTy).Contents (Elt F)),
    reshape main_v3 main_v4 rfl shapeCasts_S1x1000000_S1000000,
    nullary main_c (constantI S_ 32 0#32),
    unary main_c main_v5 (broadcastInDim S1000000 ![] bcast_S_S1000000 : (⟨S_, .i32⟩ : BufTy).Contents (Elt F) → (⟨S1000000, .i32⟩ : BufTy).Contents (Elt F)),
    binary main_v4 main_v5 main_v6 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v7 (broadcastInDim S1000000 ![] bcast_S_S1000000 : (⟨S_, .i32⟩ : BufTy).Contents (Elt F) → (⟨S1000000, .i32⟩ : BufTy).Contents (Elt F)),
    binary main_v4 main_v7 main_v8 (addi : (⟨S1000000, .i32⟩ : BufTy).Contents (Elt F) → (⟨S1000000, .i32⟩ : BufTy).Contents (Elt F) → (⟨S1000000, .i32⟩ : BufTy).Contents (Elt F)),
    ternary main_v6 main_v8 main_v4 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v9 main_v10 (broadcastInDim S1000000x1 ![0] bcast_S1000000_S1000000x1_0 : (⟨S1000000, .i32⟩ : BufTy).Contents (Elt F) → (⟨S1000000x1, .i32⟩ : BufTy).Contents (Elt F)),
    binary main_v0 main_v10 main_v11 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    unary main_arg3 main_v12 ((extractStridedSlice S1x1000000 ![1, 0] · slices_S4x1000000_S1x1000000_1_0) : (⟨S4x1000000, .i32⟩ : BufTy).Contents (Elt F) → (⟨S1x1000000, .i32⟩ : BufTy).Contents (Elt F)),
    reshape main_v12 main_v13 rfl shapeCasts_S1x1000000_S1000000,
    nullary main_c_1 (constantI S_ 32 0#32),
    unary main_c_1 main_v14 (broadcastInDim S1000000 ![] bcast_S_S1000000 : (⟨S_, .i32⟩ : BufTy).Contents (Elt F) → (⟨S1000000, .i32⟩ : BufTy).Contents (Elt F)),
    binary main_v13 main_v14 main_v15 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 50000#32),
    unary main_c_2 main_v16 (broadcastInDim S1000000 ![] bcast_S_S1000000 : (⟨S_, .i32⟩ : BufTy).Contents (Elt F) → (⟨S1000000, .i32⟩ : BufTy).Contents (Elt F)),
    binary main_v13 main_v16 main_v17 (addi : (⟨S1000000, .i32⟩ : BufTy).Contents (Elt F) → (⟨S1000000, .i32⟩ : BufTy).Contents (Elt F) → (⟨S1000000, .i32⟩ : BufTy).Contents (Elt F)),
    ternary main_v15 main_v17 main_v13 main_v18 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v18 main_v19 (broadcastInDim S1000000x1 ![0] bcast_S1000000_S1000000x1_0 : (⟨S1000000, .i32⟩ : BufTy).Contents (Elt F) → (⟨S1000000x1, .i32⟩ : BufTy).Contents (Elt F)),
    binary main_v0 main_v19 main_v20 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    unary main_arg3 main_v21 ((extractStridedSlice S1x1000000 ![2, 0] · slices_S4x1000000_S1x1000000_2_0) : (⟨S4x1000000, .i32⟩ : BufTy).Contents (Elt F) → (⟨S1x1000000, .i32⟩ : BufTy).Contents (Elt F)),
    reshape main_v21 main_v22 rfl shapeCasts_S1x1000000_S1000000,
    nullary main_c_3 (constantI S_ 32 0#32),
    unary main_c_3 main_v23 (broadcastInDim S1000000 ![] bcast_S_S1000000 : (⟨S_, .i32⟩ : BufTy).Contents (Elt F) → (⟨S1000000, .i32⟩ : BufTy).Contents (Elt F)),
    binary main_v22 main_v23 main_v24 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 50000#32),
    unary main_c_4 main_v25 (broadcastInDim S1000000 ![] bcast_S_S1000000 : (⟨S_, .i32⟩ : BufTy).Contents (Elt F) → (⟨S1000000, .i32⟩ : BufTy).Contents (Elt F)),
    binary main_v22 main_v25 main_v26 (addi : (⟨S1000000, .i32⟩ : BufTy).Contents (Elt F) → (⟨S1000000, .i32⟩ : BufTy).Contents (Elt F) → (⟨S1000000, .i32⟩ : BufTy).Contents (Elt F)),
    ternary main_v24 main_v26 main_v22 main_v27 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v27 main_v28 (broadcastInDim S1000000x1 ![0] bcast_S1000000_S1000000x1_0 : (⟨S1000000, .i32⟩ : BufTy).Contents (Elt F) → (⟨S1000000x1, .i32⟩ : BufTy).Contents (Elt F)),
    binary main_v1 main_v28 main_v29 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    unary main_arg3 main_v30 ((extractStridedSlice S1x1000000 ![3, 0] · slices_S4x1000000_S1x1000000_3_0) : (⟨S4x1000000, .i32⟩ : BufTy).Contents (Elt F) → (⟨S1x1000000, .i32⟩ : BufTy).Contents (Elt F)),
    reshape main_v30 main_v31 rfl shapeCasts_S1x1000000_S1000000,
    nullary main_c_5 (constantI S_ 32 0#32),
    unary main_c_5 main_v32 (broadcastInDim S1000000 ![] bcast_S_S1000000 : (⟨S_, .i32⟩ : BufTy).Contents (Elt F) → (⟨S1000000, .i32⟩ : BufTy).Contents (Elt F)),
    binary main_v31 main_v32 main_v33 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 50000#32),
    unary main_c_6 main_v34 (broadcastInDim S1000000 ![] bcast_S_S1000000 : (⟨S_, .i32⟩ : BufTy).Contents (Elt F) → (⟨S1000000, .i32⟩ : BufTy).Contents (Elt F)),
    binary main_v31 main_v34 main_v35 (addi : (⟨S1000000, .i32⟩ : BufTy).Contents (Elt F) → (⟨S1000000, .i32⟩ : BufTy).Contents (Elt F) → (⟨S1000000, .i32⟩ : BufTy).Contents (Elt F)),
    ternary main_v33 main_v35 main_v31 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v36 main_v37 (broadcastInDim S1000000x1 ![0] bcast_S1000000_S1000000x1_0 : (⟨S1000000, .i32⟩ : BufTy).Contents (Elt F) → (⟨S1000000x1, .i32⟩ : BufTy).Contents (Elt F)),
    binary main_v2 main_v37 main_v38 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    nary ![main_v11, main_v20, main_v29, main_v38] main_v39 (fun u => concatenate S1000000x256 1 [⟨S1000000x64, u 0⟩, ⟨S1000000x64, u 1⟩, ⟨S1000000x64, u 2⟩, ⟨S1000000x64, u 3⟩] concatenates_S1000000x64_S1000000x64_S1000000x64_S1000000x64_S1000000x256_d1),
    binary main_v39 main_arg7 main_v40 ((fun l r => Host.dotGeneral dot_S1000000x256_S256x64_S1000000x64_1_0_0_1_n_n none l r) : (⟨S1000000x256, .f32⟩ : BufTy).Contents (Elt F) → (⟨S256x64, .f32⟩ : BufTy).Contents (Elt F) → (⟨S1000000x64, .f32⟩ : BufTy).Contents (Elt F)),
    nullary main_cst (constant S_ .f32 0x3E4CCCCD#32),
    TRef.nullary main_call0.cst (constant S_ .f32 0x00000000#32),
    TRef.unary main_call0.cst main_call0.v0 (broadcastInDim S1000000x64 ![] bcast_S_S1000000x64),
    TRef.binary (.of main_v40) main_call0.v0 main_call0.v1 (cmpf .oge),
    TRef.unary (.of main_cst) main_call0.v2 id,
    TRef.unary main_call0.v2 main_call0.v3 (broadcastInDim S1000000x64 ![] bcast_S_S1000000x64),
    TRef.binary main_call0.v3 (.of main_v40) main_call0.v4 mulf,
    TRef.ternary main_call0.v1 (.of main_v40) main_call0.v4 main_call0.call0.v0 select ]

-- fifty-seven binds re-associated: one level of recursion per statement
set_option maxRecDepth 2048 in
/-- The program is that straight line: the two functions unfolded at their calls, sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nary_bufs_sub ..,
    binary_bufs_sub .., nullary_bufs_sub .., nullary_bufs_sub .., unary_bufs_sub .., binary_bufs_sub .., unary_bufs_sub ..,
    unary_bufs_sub .., binary_bufs_sub .., ternary_bufs_sub ..⟩

/-- Every weakly fair execution terminates with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

section Term

open Idealize.ShloMosaic.StableHlo

variable {F : FTy → Type} [FloatOps F]

/-- One row of the adjacency table as a flat vector: the slice at `off`, reshaped. -/
def flatRow (off : Fin S4x1000000.rank → Nat) (hs : S4x1000000.Slices off S1x1000000) (adj : IVec S4x1000000 32) : IVec S1000000 32 :=
  shapeCast S1000000 (extractStridedSlice S1x1000000 off adj hs) shapeCasts_S1x1000000_S1000000

/-- That row with NumPy's wrap of a negative index (`v + 50000` where `v < 0`), as the one-column index table the
    gather reads. -/
def idxCol (off : Fin S4x1000000.rank → Nat) (hs : S4x1000000.Slices off S1x1000000) (adj : IVec S4x1000000 32) : IVec S1000000x1 32 :=
  broadcastInDim S1000000x1 ![0] bcast_S1000000_S1000000x1_0
    (select (cmpi .slt (flatRow off hs adj) (broadcastInDim S1000000 ![] bcast_S_S1000000 (constantI S_ 32 0#32)))
      (addi (flatRow off hs adj) (broadcastInDim S1000000 ![] bcast_S_S1000000 (constantI S_ 32 50000#32)))
      (flatRow off hs adj))

/-- One 64-wide piece: the node table projected by its 64×64 matrix, its rows gathered at the wrapped indices. -/
def piece (T : FVec F S50000x64 .f32) (P : FVec F S64x64 .f32) (off : Fin S4x1000000.rank → Nat)
    (hs : S4x1000000.Slices off S1x1000000) (adj : IVec S4x1000000 32) : FVec F S1000000x64 .f32 :=
  Host.gather gather_S50000x64_S1000000x1_S1000000x64_1_0_n_n_0_1_164
    (Host.dotGeneral dot_S50000x64_S64x64_S50000x64_1_0_0_1_n_n none T P) (idxCol off hs adj)

/-- The four pieces side by side. -/
def pieces (T0 T1 T2 : FVec F S50000x64 .f32) (adj : IVec S4x1000000 32) (P0 P1 P2 : FVec F S64x64 .f32) :
    FVec F S1000000x256 .f32 :=
  concatenate S1000000x256 1
    [⟨S1000000x64, piece T0 P0 ![0, 0] slices_S4x1000000_S1x1000000_0_0 adj⟩,
     ⟨S1000000x64, piece T0 P0 ![1, 0] slices_S4x1000000_S1x1000000_1_0 adj⟩,
     ⟨S1000000x64, piece T1 P1 ![2, 0] slices_S4x1000000_S1x1000000_2_0 adj⟩,
     ⟨S1000000x64, piece T2 P2 ![3, 0] slices_S4x1000000_S1x1000000_3_0 adj⟩]
    concatenates_S1000000x64_S1000000x64_S1000000x64_S1000000x64_S1000000x256_d1

/-- The score before the activation: the pieces against the 256×64 weight. -/
def preTerm (T0 T1 T2 : FVec F S50000x64 .f32) (adj : IVec S4x1000000 32) (P0 P1 P2 : FVec F S64x64 .f32)
    (W : FVec F S256x64 .f32) : FVec F S1000000x64 .f32 :=
  Host.dotGeneral dot_S1000000x256_S256x64_S1000000x64_1_0_0_1_n_n none (pieces T0 T1 T2 adj P0 P1 P2) W

/-- The leaky rectifier as the reference spells it: `a` where `a ≥ 0`, else the broadcast slope times `a`. -/
def leakyTerm (a : FVec F S1000000x64 .f32) : FVec F S1000000x64 .f32 :=
  select (cmpf .oge a (broadcastInDim S1000000x64 ![] bcast_S_S1000000x64 (constant S_ .f32 0x00000000#32))) a
    (mulf (broadcastInDim S1000000x64 ![] bcast_S_S1000000x64 (id (constant S_ .f32 0x3E4CCCCD#32))) a)

/-- The reference's result as one term of its eight arguments. -/
def refTerm (T0 T1 T2 : FVec F S50000x64 .f32) (adj : IVec S4x1000000 32) (P0 P1 P2 : FVec F S64x64 .f32)
    (W : FVec F S256x64 .f32) : FVec F S1000000x64 .f32 :=
  leakyTerm (preTerm T0 T1 T2 adj P0 P1 P2 W)

attribute [local irreducible] Host.gather concatenate extractStridedSlice shapeCast broadcastInDim in
set_option maxRecDepth 8192 in
set_option maxHeartbeats 1600000 in
/-- The fold of the fifty-seven operations at the result buffer is that term: each operation rewrites only its own
    buffer, so reading the result buffer back through the fold composes the operations' functions in order. -/
theorem out_eq (V : Valuation τ sig (Elt F)) :
    after ops V (main_v41 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [after_cons, after_nil]
  rfl

/-! No operation writes an argument's buffer: each keeps its launch contents through the fold. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

end Term

section Index

open Idealize.ShloMosaic.ValueIdx Idealize.ShloMosaic.StackMember

/-- A flattened row of the adjacency table read at edge `e`: the slice shifts the row coordinate by its offset, the
    reshape keeps the row-major position, so it is the table's entry in that row. -/
theorem flatRow_apply (off : Fin S4x1000000.rank → Nat) (hs : S4x1000000.Slices off S1x1000000) (adj : IVec S4x1000000 32)
    (s : Fin 4) (h0 : off 0 = s.val) (h1 : off 1 = 0) (e : Fin 1000000) :
    flatRow off hs adj (ix1 e) = adj (ix2 s e) := by
  unfold flatRow
  rw [shapeCast_apply _ shapeCasts_S1x1000000_S1000000 (ix1 e) (ix2 (0 : Fin 1) e)
    (by rw [Shape.rowMajor_val_two, Shape.rowMajor_val_one]; show (0 : ℕ) * 1000000 + e.val = e.val; omega)]
  exact extractStridedSlice_apply off adj hs (ix2 (0 : Fin 1) e) (ix2 s e) (fun a => by
    match a with
    | ⟨0, _⟩ => show s.val = off 0 + 0; omega
    | ⟨1, _⟩ => show e.val = off 1 + e.val; omega)

/-- The index column read at edge `e`: the wrapped raw index of that edge. -/
theorem idxCol_apply (off : Fin S4x1000000.rank → Nat) (hs : S4x1000000.Slices off S1x1000000) (adj : IVec S4x1000000 32)
    (s : Fin 4) (h0 : off 0 = s.val) (h1 : off 1 = 0) (e : Fin 1000000) :
    idxCol off hs adj (ix2 e (0 : Fin 1)) = wrap (adj (ix2 s e)) := by
  unfold idxCol
  rw [broadcastInDim_apply ![0] bcast_S1000000_S1000000x1_0 _ (ix2 e (0 : Fin 1)) (ix1 e) (fun a => by
    match a with
    | ⟨0, _⟩ => show e.val = if (1000000 : ℕ) = 1 then 0 else e.val; rw [if_neg (by norm_num)])]
  show Scalar.select (IntOp.cmpi .slt (flatRow off hs adj (ix1 e)) 0#32) (IntOp.addi (flatRow off hs adj (ix1 e)) 50000#32)
      (flatRow off hs adj (ix1 e)) = _
  rw [flatRow_apply off hs adj s h0 h1 e]
  rfl

local notation "G" => gather_S50000x64_S1000000x1_S1000000x64_1_0_n_n_0_1_164

/-- The gather read at `(e, d)`: the row is the start index of edge `e` read signed and clamped into the table's
    rows (the row axis is collapsed, its slice one row), the column is the offset coordinate `d` (the column axis
    starts at 0 and is not collapsed). -/
theorem gather_apply {α : Type} (x : S50000x64.Idx → α) (idx : IVec S1000000x1 32) (e : Fin 1000000) (d : Fin 64) :
    Host.gather gather_S50000x64_S1000000x1_S1000000x64_1_0_n_n_0_1_164 x idx (ix2 e d)
      = x (ix2 (⟨min (idx (ix2 e (0 : Fin 1))).toInt.toNat 49999, by omega⟩ : Fin 50000) d) := by
  unfold Host.gather
  congr 1
  funext a
  refine Fin.ext ?_
  match a with
  | ⟨0, _⟩ =>
    show GatherDims.start G (ix2 e d) idx 0 + GatherDims.batchCoord G (ix2 e d) 0 + GatherDims.offCoord G (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S50000x64.rank) ∈ GatherDims.startIndexMap G from List.mem_singleton.mpr rfl)]
    have hsi : GatherDims.siIdx G (ix2 e d) ⟨List.idxOf (0 : Fin S50000x64.rank) (GatherDims.startIndexMap G),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start G (ix2 e d) idx 1 + GatherDims.batchCoord G (ix2 e d) 1 + GatherDims.offCoord G (ix2 e d) 1 = d.val
    rw [GatherDims.batchCoord_eq_zero _ _ _ List.not_mem_nil]
    have hst : GatherDims.start G (ix2 e d) idx 1 = 0 := by
      unfold GatherDims.start
      rw [dif_neg (by decide)]
    have hoff : GatherDims.offCoord G (ix2 e d) 1 = d.val := by
      unfold GatherDims.offCoord
      rw [dif_pos ((GatherDims.mem_sKept _ _).mpr ⟨by decide, List.not_mem_nil⟩)]
      rfl
    rw [hst, hoff]
    omega

/-- A projected table read at `(r, d)`: the row of the table against the column of the 64×64 matrix. -/
theorem proj_apply (T : FVec Ideal S50000x64 .f32) (P : FVec Ideal S64x64 .f32) (r : Fin 50000) (d : Fin 64) :
    Host.dotGeneral dot_S50000x64_S64x64_S50000x64_1_0_0_1_n_n none T P (ix2 r d) = ∑ c : Fin 64, T (ix2 r c) * P (ix2 c d) :=
  dotGeneral_plain_apply (m := 50000) (n := 64) (k := 64) none T P r d

/-- One piece read at `(e, d)`: the table's row for edge `e` against column `d` of its matrix. -/
theorem piece_apply (T : FVec Ideal S50000x64 .f32) (P : FVec Ideal S64x64 .f32) (off : Fin S4x1000000.rank → Nat)
    (hs : S4x1000000.Slices off S1x1000000) (adj : IVec S4x1000000 32) (s : Fin 4) (h0 : off 0 = s.val) (h1 : off 1 = 0)
    (e : Fin 1000000) (d : Fin 64) :
    piece T P off hs adj (ix2 e d) = ∑ c : Fin 64, T (ix2 (row adj s e) c) * P (ix2 c d) := by
  have hrow : (⟨min (idxCol off hs adj (ix2 e (0 : Fin 1))).toInt.toNat 49999, by omega⟩ : Fin 50000) = row adj s e :=
    Fin.ext (by
      show min (idxCol off hs adj (ix2 e (0 : Fin 1))).toInt.toNat 49999 = (row adj s e).val
      rw [idxCol_apply off hs adj s h0 h1 e]; rfl)
  unfold piece
  rw [gather_apply, proj_apply, hrow]

/-- The 256-long product with the weight read at `(e, j)`. -/
theorem preDot_apply (X : FVec Ideal S1000000x256 .f32) (W : FVec Ideal S256x64 .f32) (e : Fin 1000000) (j : Fin 64) :
    Host.dotGeneral dot_S1000000x256_S256x64_S1000000x64_1_0_0_1_n_n none X W (ix2 e j) = ∑ k : Fin 256, X (ix2 e k) * W (ix2 k j) :=
  dotGeneral_plain_apply (m := 1000000) (n := 64) (k := 256) none X W e j

/-- The four pieces side by side, read at column `64 s + d`: piece `s` at its column `d` (the pieces before it take
    up `64 s` columns). -/
theorem pieces_apply (T0 T1 T2 : FVec Ideal S50000x64 .f32) (adj : IVec S4x1000000 32) (P0 P1 P2 : FVec Ideal S64x64 .f32)
    (e : Fin 1000000) (s : Fin 4) (d : Fin 64) :
    pieces T0 T1 T2 adj P0 P1 P2 (ix2 e (wrow s d))
      = ∑ c : Fin 64, gathered T0 T1 T2 adj e s c * proj P0 P1 P2 s (ix2 c d) := by
  have hi : ∀ (k : Fin 256) (b : Fin S1000000x64.rank), b.cast (rfl : S1000000x64.rank = S1000000x256.rank) ≠ 1 →
      ((ix2 e d) b).val = ((ix2 e k) (b.cast rfl)).val := fun k b hb => by
    match b with
    | ⟨0, _⟩ => rfl
    | ⟨1, _⟩ => exact absurd rfl hb
  unfold pieces
  match s with
  | ⟨0, _⟩ =>
    exact (concatenate_apply_piece 1 _ _ (ix2 e (wrow 0 d)) 0 (by show (0 : ℕ) < 4; omega) S1000000x64 _ rfl rfl 0 rfl (ix2 e d) (hi _)
      (by show 0 + d.val = 64 * 0 + d.val; omega)).trans
      (piece_apply T0 P0 ![0, 0] slices_S4x1000000_S1x1000000_0_0 adj 0 rfl rfl e d)
  | ⟨1, _⟩ =>
    exact (concatenate_apply_piece 1 _ _ (ix2 e (wrow 1 d)) 1 (by show (1 : ℕ) < 4; omega) S1000000x64 _ rfl rfl 64 rfl (ix2 e d) (hi _)
      (by show 64 + d.val = 64 * 1 + d.val; omega)).trans
      (piece_apply T0 P0 ![1, 0] slices_S4x1000000_S1x1000000_1_0 adj 1 rfl rfl e d)
  | ⟨2, _⟩ =>
    exact (concatenate_apply_piece 1 _ _ (ix2 e (wrow 2 d)) 2 (by show (2 : ℕ) < 4; omega) S1000000x64 _ rfl rfl 128 rfl (ix2 e d) (hi _)
      (by show 128 + d.val = 64 * 2 + d.val; omega)).trans
      (piece_apply T1 P1 ![2, 0] slices_S4x1000000_S1x1000000_2_0 adj 2 rfl rfl e d)
  | ⟨3, _⟩ =>
    exact (concatenate_apply_piece 1 _ _ (ix2 e (wrow 3 d)) 3 (by show (3 : ℕ) < 4; omega) S1000000x64 _ rfl rfl 192 rfl (ix2 e d) (hi _)
      (by show 192 + d.val = 64 * 3 + d.val; omega)).trans
      (piece_apply T2 P2 ![3, 0] slices_S4x1000000_S1x1000000_3_0 adj 3 rfl rfl e d)

/-- The score before the activation read at `(e, j)`: the 256-long sum split piece by piece is the reference's
    grouping `Σ_s Σ_d (Σ_c T_s[row, c] · P_s[c, d]) · W[64 s + d, j]`. -/
theorem preTerm_apply (T0 T1 T2 : FVec Ideal S50000x64 .f32) (adj : IVec S4x1000000 32) (P0 P1 P2 : FVec Ideal S64x64 .f32)
    (W : FVec Ideal S256x64 .f32) (e : Fin 1000000) (j : Fin 64) :
    preTerm T0 T1 T2 adj P0 P1 P2 W (ix2 e j) = preAt T0 T1 T2 adj P0 P1 P2 W e j := by
  unfold preTerm preAt accProj
  rw [preDot_apply, sum_fin256]
  refine Finset.sum_congr rfl fun s _ => Finset.sum_congr rfl fun d _ => ?_
  rw [pieces_apply]

/-- The reference's result read at `(e, j)`: the comparison with the broadcast zero, the product with the broadcast
    slope and the select are pointwise, so it is the leaky rectifier of the score there. -/
theorem refTerm_apply (T0 T1 T2 : FVec Ideal S50000x64 .f32) (adj : IVec S4x1000000 32) (P0 P1 P2 : FVec Ideal S64x64 .f32)
    (W : FVec Ideal S256x64 .f32) (e : Fin 1000000) (j : Fin 64) :
    refTerm T0 T1 T2 adj P0 P1 P2 W (ix2 e j) = leakyGe (preAt T0 T1 T2 adj P0 P1 P2 W e j) := by
  unfold refTerm leakyTerm
  show Scalar.select (Ideal.cmp .oge (preTerm T0 T1 T2 adj P0 P1 P2 W (ix2 e j)) (Ideal.ofBits .f32 0x00000000#32))
      (preTerm T0 T1 T2 adj P0 P1 P2 W (ix2 e j))
      (Ideal.ofBits .f32 0x3E4CCCCD#32 * preTerm T0 T1 T2 adj P0 P1 P2 W (ix2 e j)) = _
  rw [preTerm_apply, Ideal.ofBits_zero_f32]
  rfl

/-- Index by index, the reference's term is the score. -/
theorem refTerm_eq_score (T0 T1 T2 : FVec Ideal S50000x64 .f32) (adj : IVec S4x1000000 32) (P0 P1 P2 : FVec Ideal S64x64 .f32)
    (W : FVec Ideal S256x64 .f32) :
    refTerm T0 T1 T2 adj P0 P1 P2 W = score T0 T1 T2 adj P0 P1 P2 W := by
  funext i
  obtain ⟨e, j, rfl⟩ : ∃ (e : Fin 1000000) (j : Fin 64), i = ix2 e j := ⟨i 0, i 1, eq_ix2 i⟩
  exact refTerm_apply T0 T1 T2 adj P0 P1 P2 W e j

end Index

/-- Every weakly fair execution of the reference terminates with the result array at the score of the launch
    contents of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
        = score (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v41).trans ((out_eq _).trans (refTerm_eq_score _ _ _ _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _)⟩)
    (run_main m ρ)

end Cert.RefValue

end
-- ==== Proof.KernelHost.lean ====
/-
  What the kernel's region finds in the eight arrays it stages, index by index, at the extended reals: the four
  folded products `P_s · W_s` (a change of float format is the identity there), and the four gathered tables —
  which, for raw indices in range, are the table rows themselves: the bound test that would otherwise fill a row
  passes on every edge.
-/
import proofs.«429126_j58815282152047_1_alg».proof.Proof.Gen.KernelIdeal.Frame
import proofs.«429126_j58815282152047_1_alg».proof.Proof.EdgeScore
import Idealize.ShloMosaic.Lib.StableHlo.Run
import Idealize.ShloMosaic.Lib.Pipeline.Value
import Idealize.ShloMosaic.Lib.ReduceAll

set_option maxRecDepth 8192

noncomputable section

namespace Cert.KernelHost

open Cert.KernelIdeal Cert.KernelIdeal.Gen Idealize.ShloMosaic Idealize.ShloMosaic.TcCoe Idealize.SL.Sem
open Idealize.ShloMosaic.ValueIdx Cert.EdgeScore

variable (m : (ℓ : Loc nD τ sig) → Buf (Elt Ideal) ℓ)

/-- The argument arrays as launched, by name. -/
abbrev taxPayer (c : Dev nD) : SNode.Idx → EReal := m ((c : Thread nD τ).loc main_arg0)
abbrev person (c : Dev nD) : SNode.Idx → EReal := m ((c : Thread nD τ).loc main_arg1)
abbrev item (c : Dev nD) : SNode.Idx → EReal := m ((c : Thread nD τ).loc main_arg2)
abbrev adj (c : Dev nD) : IVec SAdj 32 := m ((c : Thread nD τ).loc main_arg3)
abbrev pCompany (c : Dev nD) : SProj.Idx → EReal := m ((c : Thread nD τ).loc main_arg4)
abbrev pPerson (c : Dev nD) : SProj.Idx → EReal := m ((c : Thread nD τ).loc main_arg5)
abbrev pItem (c : Dev nD) : SProj.Idx → EReal := m ((c : Thread nD τ).loc main_arg6)
abbrev weight (c : Dev nD) : SWeight.Idx → EReal := m ((c : Thread nD τ).loc main_arg7)

/-! ## A folded product, as the program computes it -/

/-- The folded product as the program computes it: the product of a projection with a 64-row slice of the weight, the float format then narrowed. -/
def foldArr (off : Fin 2 → ℕ) (h : S256x64.Slices off S64x64) (P : FVec Ideal S64x64 .f32) (W : FVec Ideal S256x64 .f32) :
    FVec Ideal S64x64 .bf16 :=
  truncf .bf16 (Host.dotGeneral dot_S64x64_S64x64_S64x64_1_0_0_1_n_n none P (extractStridedSlice S64x64 off W h)) Facts₀.bitsLt_bf16_f32

/-- The product contracts one axis, of 64 positions. -/
theorem dot_contr_rank : dot_S64x64_S64x64_S64x64_1_0_0_1_n_n.contr.rank = 1 := rfl
theorem dot_contr_size : dot_S64x64_S64x64_S64x64_1_0_0_1_n_n.contr.size ⟨0, by rw [dot_contr_rank]; exact Nat.one_pos⟩ = 64 := rfl

/-- The left operand is read at the output's row and the contraction position. -/
theorem dot_lhs0 (j : S64x64.Idx) (k : dot_S64x64_S64x64_S64x64_1_0_0_1_n_n.contr.Idx) :
    (dot_S64x64_S64x64_S64x64_1_0_0_1_n_n.lhsIdx j k 0).val = (j 0).val := rfl
theorem dot_lhs1 (j : S64x64.Idx) (k : dot_S64x64_S64x64_S64x64_1_0_0_1_n_n.contr.Idx) :
    (dot_S64x64_S64x64_S64x64_1_0_0_1_n_n.lhsIdx j k 1).val = (k ⟨0, by rw [dot_contr_rank]; exact Nat.one_pos⟩).val :=
  DotDims.lhsIdx_val_of_single _ rfl j k
/-- The right operand is read at the contraction position and the output's column. -/
theorem dot_rhs0 (j : S64x64.Idx) (k : dot_S64x64_S64x64_S64x64_1_0_0_1_n_n.contr.Idx) :
    (dot_S64x64_S64x64_S64x64_1_0_0_1_n_n.rhsIdx j k 0).val = (k ⟨0, by rw [dot_contr_rank]; exact Nat.one_pos⟩).val :=
  DotDims.rhsIdx_val_of_single _ rfl j k
theorem dot_rhs1 (j : S64x64.Idx) (k : dot_S64x64_S64x64_S64x64_1_0_0_1_n_n.contr.Idx) :
    (dot_S64x64_S64x64_S64x64_1_0_0_1_n_n.rhsIdx j k 1).val = (j 1).val := rfl

/-- The folded product at an index: the sum over the 64 positions of the projection's row against the weight's rows
    `64 s + d`, the narrowing of the float format being the identity on the extended reals. -/
theorem foldArr_apply (off : Fin 2 → ℕ) (h : S256x64.Slices off S64x64) (P : FVec Ideal S64x64 .f32) (W : FVec Ideal S256x64 .f32)
    (s : Fin 4) (h0 : off 0 = 64 * s.val) (h1 : off 1 = 0) (a j : Fin 64) :
    foldArr off h P W (ix2 a j) = ∑ d : Fin 64, P (ix2 a d) * W (ix2 (wrow s d) j) := by
  unfold foldArr
  rw [truncf_apply]
  simp only [Host.dotGeneral]
  rw [Ideal.dotGeneral_apply]
  rw [← Equiv.sum_comp (contrEquiv1 dot_S64x64_S64x64_S64x64_1_0_0_1_n_n 64 dot_contr_rank dot_contr_size).symm]
  refine Finset.sum_congr rfl fun d _ => ?_
  have hk := contrEquiv1_symm_val dot_S64x64_S64x64_S64x64_1_0_0_1_n_n 64 dot_contr_rank dot_contr_size d
  congr 1
  · refine congrArg P (funext fun x => Fin.ext ?_)
    match x with
    | ⟨0, _⟩ => exact dot_lhs0 _ _
    | ⟨1, _⟩ => exact (dot_lhs1 _ _).trans hk
  · refine extractStridedSlice_apply off W h _ (ix2 (wrow s d) j) fun x => ?_
    match x with
    | ⟨0, _⟩ =>
      show 64 * s.val + d.val = off 0 + (dot_S64x64_S64x64_S64x64_1_0_0_1_n_n.rhsIdx (ix2 a j) _ 0).val
      rw [h0, dot_rhs0, hk]
    | ⟨1, _⟩ =>
      show j.val = off 1 + (dot_S64x64_S64x64_S64x64_1_0_0_1_n_n.rhsIdx (ix2 a j) _ 1).val
      rw [h1, dot_rhs1, Nat.zero_add]

/-! ## A gathered table, as the program computes it -/

/-- The start indices: each raw index wrapped (`v + 50000` when negative), laid out as a one-column array. -/
def idxArr (v : IVec S1000000 32) : IVec S1000000x1 32 :=
  broadcastInDim S1000000x1 ![0] Facts₀.bcast_S1000000_S1000000x1_0
    (select (cmpi .slt v (broadcastInDim S1000000 ![] Facts₀.bcast_S_S1000000 (constantI S_ 32 0#32)))
      (addi v (broadcastInDim S1000000 ![] Facts₀.bcast_S_S1000000 (constantI S_ 32 50000#32))) v)

/-- The bound test: per edge, the conjunction over the one column of `0 ≤ index` and `index ≤ 49999`. -/
def maskArr (v : IVec S1000000 32) : IVec S1000000 1 :=
  Host.reduce IntOp.andi
    (andi (cmpi .sge (idxArr v) (broadcastInDim S1000000x1 ![] Facts₀.bcast_S_S1000000x1 (constantI S_ 32 0#32)))
      (cmpi .sle (idxArr v) (broadcastInDim S1000000x1 ![0, 1] Facts₀.bcast_S1x1_S1000000x1_0_1
        (broadcastInDim S1x1 ![1] Facts₀.bcast_S1_S1x1_1 (constantI S1 32 49999#32)))))
    (constantI S_ 1 1#1) Facts₀.reducesTo_S1000000x1_S1000000_d1 Facts₀.h_S_

/-- The gathered table: where the bound test passes the table row at the clamped start index, elsewhere a filler;
    the float format then narrowed. -/
def takeArr (T : FVec Ideal S50000x64 .f32) (v : IVec S1000000 32) : FVec Ideal S1000000x64 .bf16 :=
  truncf .bf16
    (select (broadcastInDim S1000000x64 ![0] Facts₀.bcast_S1000000_S1000000x64_0 (maskArr v))
      (Host.gather gather_S50000x64_S1000000x1_S1000000x64_1_0_n_n_0_1_164 T (idxArr v))
      (broadcastInDim S1000000x64 ![] Facts₀.bcast_S_S1000000x64 (constant (F := Ideal) S_ .f32 0x7FC00000#32)))
    Facts₀.bitsLt_bf16_f32

/-- Row `s` of the adjacency as a flat array of a million raw indices. -/
def adjRow (off : Fin 2 → ℕ) (h : S4x1000000.Slices off S1x1000000) (A : IVec S4x1000000 32) : IVec S1000000 32 :=
  fun i => shapeCast S1000000 (extractStridedSlice S1x1000000 off A h) Facts₀.shapeCasts_S1x1000000_S1000000 i

/-- A conjunction folded from 1 over words that are all 1 stays 1. -/
theorem foldl_andi_one {ι : Type} (f : ι → BitVec 1) : ∀ l : List ι, (∀ n ∈ l, f n = 1#1) →
    l.foldl (fun r n => IntOp.andi r (f n)) 1#1 = 1#1
  | [], _ => rfl
  | a :: l, h => by
    have h11 : IntOp.andi 1#1 1#1 = 1#1 := by decide
    rw [List.foldl_cons, h a (List.mem_cons_self ..), h11]
    exact foldl_andi_one f l fun n hn => h n (List.mem_cons_of_mem _ hn)

/-- The start index of edge `e` is the wrap of its raw index. -/
theorem idxArr_apply (v : IVec S1000000 32) (e : Fin 1000000) (z : Fin 1) : idxArr v (ix2 e z) = wrap (v (ix1 e)) := by
  unfold idxArr
  rw [broadcastInDim_apply ![0] _ _ (ix2 e z) (ix1 e) (fun a => by
    obtain rfl : a = 0 := Subsingleton.elim _ _
    rw [if_neg (by decide)]; rfl)]
  rfl

/-- With every raw index a valid one, the bound test passes on every edge: each wrapped index lies in `[0, 49999]`,
    so the conjunction over the one column is 1. -/
theorem maskArr_eq_one (v : IVec S1000000 32) (hv : ∀ i, -50000 ≤ (v i).toInt ∧ (v i).toInt < 50000) (k : S1000000.Idx) :
    maskArr v k = 1#1 := by
  unfold maskArr
  rw [Host.reduce_eq_foldl]
  refine foldl_andi_one _ _ fun i _ => ?_
  obtain ⟨e, z, rfl⟩ : ∃ (e : Fin 1000000) (z : Fin 1), i = ix2 e z := ⟨i 0, i 1, eq_ix2 i⟩
  obtain ⟨h0, h1⟩ := wrap_bounds (v (ix1 e)) (hv _)
  show IntOp.andi (IntOp.cmpi .sge (idxArr v (ix2 e z)) 0#32) (IntOp.cmpi .sle (idxArr v (ix2 e z)) 49999#32) = 1#1
  rw [idxArr_apply, h0, h1]
  decide

/-- The gather's operand row for result `(e, a)`: axis 0 of the table is in the start index map with a slice of one row, so
    it is the start index of edge `e`, read signed and clamped into the table's rows. -/
theorem gather_row (idx : IVec S1000000x1 32) (e : Fin 1000000) (a : Fin 64) :
    (gather_S50000x64_S1000000x1_S1000000x64_1_0_n_n_0_1_164.operandIdx (ix2 e a) idx (0 : Fin S50000x64.rank)).val
      = min (idx (ix2 e 0)).toInt.toNat 49999 := by
  show gather_S50000x64_S1000000x1_S1000000x64_1_0_n_n_0_1_164.start (ix2 e a) idx (0 : Fin S50000x64.rank)
      + gather_S50000x64_S1000000x1_S1000000x64_1_0_n_n_0_1_164.batchCoord (ix2 e a) (0 : Fin S50000x64.rank)
      + gather_S50000x64_S1000000x1_S1000000x64_1_0_n_n_0_1_164.offCoord (ix2 e a) (0 : Fin S50000x64.rank) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S50000x64.rank) ∈ gather_S50000x64_S1000000x1_S1000000x64_1_0_n_n_0_1_164.startIndexMap from
    List.mem_singleton.mpr rfl)]
  have hsi : gather_S50000x64_S1000000x1_S1000000x64_1_0_n_n_0_1_164.siIdx (ix2 e a)
      ⟨List.idxOf (0 : Fin S50000x64.rank) gather_S50000x64_S1000000x1_S1000000x64_1_0_n_n_0_1_164.startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather's operand column for result `(e, a)`: axis 1 of the table is an offset axis, read at `a`. -/
theorem gather_col (idx : IVec S1000000x1 32) (e : Fin 1000000) (a : Fin 64) :
    (gather_S50000x64_S1000000x1_S1000000x64_1_0_n_n_0_1_164.operandIdx (ix2 e a) idx (1 : Fin S50000x64.rank)).val = a.val := by
  show gather_S50000x64_S1000000x1_S1000000x64_1_0_n_n_0_1_164.start (ix2 e a) idx (1 : Fin S50000x64.rank)
      + gather_S50000x64_S1000000x1_S1000000x64_1_0_n_n_0_1_164.batchCoord (ix2 e a) (1 : Fin S50000x64.rank)
      + gather_S50000x64_S1000000x1_S1000000x64_1_0_n_n_0_1_164.offCoord (ix2 e a) (1 : Fin S50000x64.rank) = _
  rw [GatherDims.batchCoord_eq_zero _ _ _ List.not_mem_nil]
  simp only [Nat.add_zero]
  unfold GatherDims.start
  rw [dif_neg (show (1 : Fin S50000x64.rank) ∉ gather_S50000x64_S1000000x1_S1000000x64_1_0_n_n_0_1_164.startIndexMap by decide),
    Nat.zero_add]
  rfl

/-- The gather read at `(e, a)`: the table at the clamped start index of edge `e`, column `a`. -/
theorem gather_apply (T : FVec Ideal S50000x64 .f32) (idx : IVec S1000000x1 32) (e : Fin 1000000) (a : Fin 64) :
    Host.gather gather_S50000x64_S1000000x1_S1000000x64_1_0_n_n_0_1_164 T idx (ix2 e a)
      = T (ix2 (⟨min (idx (ix2 e 0)).toInt.toNat 49999, by omega⟩ : Fin 50000) a) := by
  unfold Host.gather
  refine congrArg T (funext fun x => Fin.ext ?_)
  match x with
  | ⟨0, _⟩ => exact gather_row idx e a
  | ⟨1, _⟩ => exact gather_col idx e a

/-- THE TAKE AT AN INDEX: with every raw index a valid one, edge `e` finds at column `a` the table's entry in the row
    its wrapped and clamped index names; the filler is never chosen. -/
theorem takeArr_apply (T : FVec Ideal S50000x64 .f32) (v : IVec S1000000 32)
    (hv : ∀ i, -50000 ≤ (v i).toInt ∧ (v i).toInt < 50000) (e : Fin 1000000) (a : Fin 64) :
    takeArr T v (ix2 e a) = T (ix2 (clampRow (v (ix1 e))) a) := by
  unfold takeArr
  rw [truncf_apply, select_apply]
  have hm : broadcastInDim S1000000x64 ![0] Facts₀.bcast_S1000000_S1000000x64_0 (maskArr v) (ix2 e a) = 1#1 := by
    unfold broadcastInDim; exact maskArr_eq_one v hv _
  rw [hm, select_one, gather_apply]
  refine congrArg T (congrArg (fun r => ix2 r a) (Fin.ext ?_))
  show min (idxArr v (ix2 e 0)).toInt.toNat 49999 = min (wrap (v (ix1 e))).toInt.toNat 49999
  rw [idxArr_apply]

/-- Row `s` of the adjacency, flattened, holds at position `e` the adjacency's entry `(s, e)`. -/
theorem adjRow_apply (off : Fin 2 → ℕ) (h : S4x1000000.Slices off S1x1000000) (A : IVec S4x1000000 32) (s : Fin 4)
    (h0 : off 0 = s.val) (h1 : off 1 = 0) (e : Fin 1000000) : adjRow off h A (ix1 e) = A (ix2 s e) := by
  unfold adjRow
  rw [shapeCast_apply _ _ (ix1 e) (ix2 (0 : Fin 1) e) (by
    rw [Shape.rowMajor_val_two, Shape.rowMajor_val_one]
    show (0 : ℕ) * _ + e.val = e.val
    omega)]
  refine extractStridedSlice_apply off A h _ (ix2 s e) fun x => ?_
  match x with
  | ⟨0, _⟩ => show s.val = off 0 + 0; omega
  | ⟨1, _⟩ => show e.val = off 1 + e.val; omega

/-! ## Contents moved to a buffer's own type and back -/

/-- Contents written to a typed reference's buffer and read back at the same type are themselves: the two moves are
    transports along the one equation between the types, there and back. -/
theorem ofBuf_toBuf {T : BufTy} (x : StableHlo.TRef sig T) (v : T.Contents (Elt Ideal)) : x.ofBuf (x.toBuf v) = v := by
  obtain ⟨r, rfl, _, _⟩ := x
  rfl

/-- At a literal reference, whose type is the value's by computation, either move is the identity. -/
theorem ofBuf_self (r : Ref sig .tc) (h1 : r.ty = r.ty) (h2 : r.space ≠ .host) (h3 : r.isScoped = false) (v : r.ty.Contents (Elt Ideal)) :
    (StableHlo.TRef.of r h1 h2 h3).ofBuf v = v := rfl
theorem toBuf_self (r : Ref sig .tc) (h1 : r.ty = r.ty) (h2 : r.space ≠ .host) (h3 : r.isScoped = false) (v : r.ty.Contents (Elt Ideal)) :
    (StableHlo.TRef.of r h1 h2 h3).toBuf v = v := rfl

/-! ## The gathered arrays as the region finds them -/

section Composed
-- in this section the operations are symbols: the two sides of each equation are one composition of them
attribute [local irreducible] select cmpi addi andi broadcastInDim constantI constant truncf Host.reduce Host.gather shapeCast
  extractStridedSlice

/-- What the region finds in the array gathered for column 0: the host operations that write it, composed over the
    table and row 0 of the adjacency. Each operation rewrites only its own buffer, so reading the buffer back through
    the fold composes the operations' functions in order. -/
theorem v21_eq (c : Dev nD) :
    (V m c main_v21 : SOut.Idx → EReal) = takeArr (taxPayer m c) (adjRow ![0, 0] Facts₀.slices_S4x1000000_S1x1000000_0_0 (adj m c)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
  after_results_simp
  simp only [ofBuf_toBuf, ofBuf_self, toBuf_self]
  rfl

/-- What the region finds in the array gathered for column 1: the host operations that write it, composed over the
    table and row 1 of the adjacency. Each operation rewrites only its own buffer, so reading the buffer back through
    the fold composes the operations' functions in order. -/
theorem v23_eq (c : Dev nD) :
    (V m c main_v23 : SOut.Idx → EReal) = takeArr (taxPayer m c) (adjRow ![1, 0] Facts₀.slices_S4x1000000_S1x1000000_1_0 (adj m c)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
  after_results_simp
  simp only [ofBuf_toBuf, ofBuf_self, toBuf_self]
  rfl

/-- What the region finds in the array gathered for column 2: the host operations that write it, composed over the
    table and row 2 of the adjacency. Each operation rewrites only its own buffer, so reading the buffer back through
    the fold composes the operations' functions in order. -/
theorem v25_eq (c : Dev nD) :
    (V m c main_v25 : SOut.Idx → EReal) = takeArr (person m c) (adjRow ![2, 0] Facts₀.slices_S4x1000000_S1x1000000_2_0 (adj m c)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
  after_results_simp
  simp only [ofBuf_toBuf, ofBuf_self, toBuf_self]
  rfl

/-- What the region finds in the array gathered for column 3: the host operations that write it, composed over the
    table and row 3 of the adjacency. Each operation rewrites only its own buffer, so reading the buffer back through
    the fold composes the operations' functions in order. -/
theorem v27_eq (c : Dev nD) :
    (V m c main_v27 : SOut.Idx → EReal) = takeArr (item m c) (adjRow ![3, 0] Facts₀.slices_S4x1000000_S1x1000000_3_0 (adj m c)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
  after_results_simp
  simp only [ofBuf_toBuf, ofBuf_self, toBuf_self]
  rfl

end Composed

/-- In range, every raw index of a flattened adjacency row is a valid one. -/
theorem adjRow_inRange (off : Fin 2 → ℕ) (h : S4x1000000.Slices off S1x1000000) (A : IVec S4x1000000 32) (s : Fin 4)
    (h0 : off 0 = s.val) (h1 : off 1 = 0) (hr : InRange A) (i : S1000000.Idx) :
    -50000 ≤ (adjRow off h A i).toInt ∧ (adjRow off h A i).toInt < 50000 := by
  obtain ⟨k, rfl⟩ : ∃ k : Fin 1000000, i = ix1 k := ⟨i 0, eq_ix1 i⟩
  rw [adjRow_apply off h A s h0 h1 k]
  exact hr _

/-- THE GATHERED ARRAY AT AN INDEX, for any table and adjacency row: in range, edge `e` finds at column `a` the table's
    entry in the row the edge reads in column `s`. -/
theorem take_row (T : FVec Ideal S50000x64 .f32) (off : Fin 2 → ℕ) (h : S4x1000000.Slices off S1x1000000) (A : IVec S4x1000000 32)
    (s : Fin 4) (h0 : off 0 = s.val) (h1 : off 1 = 0) (hr : InRange A) (e : Fin 1000000) (a : Fin 64) :
    takeArr T (adjRow off h A) (ix2 e a) = T (ix2 (row A s e) a) := by
  rw [takeArr_apply T _ (adjRow_inRange off h A s h0 h1 hr) e a, adjRow_apply off h A s h0 h1 e]
  rfl

/-! ## The folded products -/

theorem fold0 (c : Dev nD) (a j : Fin 64) :
    (V m c main_v5 : SProj.Idx → EReal) (ix2 a j) = ∑ d : Fin 64, pCompany m c (ix2 a d) * weight m c (ix2 (wrow 0 d) j) := by
  -- the host operations that write this array, composed: the projection times rows 0 to 63 of the weight
  have e : (V m c main_v5 : SProj.Idx → EReal) = foldArr ![0, 0] Facts₀.slices_S256x64_S64x64_0_0 (pCompany m c) (weight m c) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
    after_results_simp
    rfl
  exact (congrFun e (ix2 a j)).trans (foldArr_apply _ _ _ _ 0 rfl rfl a j)

theorem fold1 (c : Dev nD) (a j : Fin 64) :
    (V m c main_v7 : SProj.Idx → EReal) (ix2 a j) = ∑ d : Fin 64, pCompany m c (ix2 a d) * weight m c (ix2 (wrow 1 d) j) := by
  -- the host operations that write this array, composed: the projection times rows 64 to 127 of the weight
  have e : (V m c main_v7 : SProj.Idx → EReal) = foldArr ![64, 0] Facts₀.slices_S256x64_S64x64_64_0 (pCompany m c) (weight m c) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
    after_results_simp
    rfl
  exact (congrFun e (ix2 a j)).trans (foldArr_apply _ _ _ _ 1 rfl rfl a j)

theorem fold2 (c : Dev nD) (a j : Fin 64) :
    (V m c main_v9 : SProj.Idx → EReal) (ix2 a j) = ∑ d : Fin 64, pPerson m c (ix2 a d) * weight m c (ix2 (wrow 2 d) j) := by
  -- the host operations that write this array, composed: the projection times rows 128 to 191 of the weight
  have e : (V m c main_v9 : SProj.Idx → EReal) = foldArr ![128, 0] Facts₀.slices_S256x64_S64x64_128_0 (pPerson m c) (weight m c) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
    after_results_simp
    rfl
  exact (congrFun e (ix2 a j)).trans (foldArr_apply _ _ _ _ 2 rfl rfl a j)

theorem fold3 (c : Dev nD) (a j : Fin 64) :
    (V m c main_v11 : SProj.Idx → EReal) (ix2 a j) = ∑ d : Fin 64, pItem m c (ix2 a d) * weight m c (ix2 (wrow 3 d) j) := by
  -- the host operations that write this array, composed: the projection times rows 192 to 255 of the weight
  have e : (V m c main_v11 : SProj.Idx → EReal) = foldArr ![192, 0] Facts₀.slices_S256x64_S64x64_192_0 (pItem m c) (weight m c) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, List.flatten_cons,
      List.flatten_nil, List.append_nil, List.cons_append, List.nil_append]
    after_results_simp
    rfl
  exact (congrFun e (ix2 a j)).trans (foldArr_apply _ _ _ _ 3 rfl rfl a j)

/-! ## The gathered tables, for indices in range -/

theorem gath0 (c : Dev nD) (hr : InRange (adj m c)) (e : Fin 1000000) (a : Fin 64) :
    (V m c main_v21 : SOut.Idx → EReal) (ix2 e a) = taxPayer m c (ix2 (row (adj m c) 0 e) a) := by
  exact (congrFun (v21_eq m c) (ix2 e a)).trans (take_row _ _ _ _ 0 rfl rfl hr e a)

theorem gath1 (c : Dev nD) (hr : InRange (adj m c)) (e : Fin 1000000) (a : Fin 64) :
    (V m c main_v23 : SOut.Idx → EReal) (ix2 e a) = taxPayer m c (ix2 (row (adj m c) 1 e) a) := by
  exact (congrFun (v23_eq m c) (ix2 e a)).trans (take_row _ _ _ _ 1 rfl rfl hr e a)

theorem gath2 (c : Dev nD) (hr : InRange (adj m c)) (e : Fin 1000000) (a : Fin 64) :
    (V m c main_v25 : SOut.Idx → EReal) (ix2 e a) = person m c (ix2 (row (adj m c) 2 e) a) := by
  exact (congrFun (v25_eq m c) (ix2 e a)).trans (take_row _ _ _ _ 2 rfl rfl hr e a)

theorem gath3 (c : Dev nD) (hr : InRange (adj m c)) (e : Fin 1000000) (a : Fin 64) :
    (V m c main_v27 : SOut.Idx → EReal) (ix2 e a) = item m c (ix2 (row (adj m c) 3 e) a) := by
  exact (congrFun (v27_eq m c) (ix2 e a)).trans (take_row _ _ _ _ 3 rfl rfl hr e a)

end Cert.KernelHost

end
-- ==== Proof.KernelPoint.lean ====
/-
  What one grid point of the kernel computes, index by index, at the extended reals.

  The body multiplies each of four 8000×64 blocks by a 64×64 matrix — a matrix product into a zero accumulator is the
  plain sum `Σ_c x[r, c] · w[c, j]` there —, adds the four products in order, and applies the leaky rectifier in its
  `a > 0` spelling.
-/
import proofs.«429126_j58815282152047_1_alg».proof.Proof.Gen.KernelIdeal.Skeleton
import proofs.«429126_j58815282152047_1_alg».proof.Proof.EdgeScore
import Idealize.ShloMosaic.PureOps.Ideal.Laws
import Idealize.ShloMosaic.Lib.Pipeline.Value
import Idealize.ShloMosaic.Lib.ValueIdx

noncomputable section

namespace Cert.KernelPoint

open Cert.KernelIdeal Cert.KernelIdeal.Gen
open Idealize.ShloMosaic Idealize.ShloMosaic.TcCoe Idealize.SL.Sem
open Idealize.ShloMosaic.Pipeline (Dat)
open Idealize.ShloMosaic.ValueIdx Cert.EdgeScore

/-! ## One matrix product of the body, at an index -/

/-- On the rows' axis the left operand reads the output's row. -/
theorem lhs_row (j : S8000x64.Idx) (k : dot_S8000x64_S64x64_S8000x64_1_0_0_1_n_n.contr.Idx) :
    (dot_S8000x64_S64x64_S8000x64_1_0_0_1_n_n.lhsIdx j k 0).val = (j 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl

/-- On the contracted axis the left operand reads the contraction position. -/
theorem lhs_col (j : S8000x64.Idx) (k : dot_S8000x64_S64x64_S8000x64_1_0_0_1_n_n.contr.Idx) :
    (dot_S8000x64_S64x64_S8000x64_1_0_0_1_n_n.lhsIdx j k 1).val = (k ⟨0, by decide⟩).val :=
  dot_S8000x64_S64x64_S8000x64_1_0_0_1_n_n.lhsIdx_val_of_single rfl j k

/-- On the contracted axis the right operand reads the contraction position. -/
theorem rhs_row (j : S8000x64.Idx) (k : dot_S8000x64_S64x64_S8000x64_1_0_0_1_n_n.contr.Idx) :
    (dot_S8000x64_S64x64_S8000x64_1_0_0_1_n_n.rhsIdx j k 0).val = (k ⟨0, by decide⟩).val :=
  dot_S8000x64_S64x64_S8000x64_1_0_0_1_n_n.rhsIdx_val_of_single rfl j k

/-- On the columns' axis the right operand reads the output's column. -/
theorem rhs_col (j : S8000x64.Idx) (k : dot_S8000x64_S64x64_S8000x64_1_0_0_1_n_n.contr.Idx) :
    (dot_S8000x64_S64x64_S8000x64_1_0_0_1_n_n.rhsIdx j k 1).val = (j 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- A block times a 64×64 matrix into the zero accumulator, at `(r, j)`: `Σ_c x[r, c] · w[c, j]`. -/
theorem matmul_at (x : FVec Ideal S8000x64 .bf16) (w : FVec Ideal S64x64 .bf16) (r : Fin 8000) (j : Fin 64) :
    matmul dot_S8000x64_S64x64_S8000x64_1_0_0_1_n_n none x w (constant S8000x64 .f32 0x00000000#32) (ix2 r j)
      = ∑ c : Fin 64, x (ix2 r c) * w (ix2 c j) := by
  simp only [matmul]
  rw [Ideal.matmul_constant_zero_apply]
  rw [← Equiv.sum_comp (contrEquiv1 dot_S8000x64_S64x64_S8000x64_1_0_0_1_n_n 64 rfl rfl).symm]
  refine Finset.sum_congr rfl fun c _ => ?_
  have hk := contrEquiv1_symm_val dot_S8000x64_S64x64_S8000x64_1_0_0_1_n_n 64 rfl rfl c
  congr 2
  · funext a
    apply Fin.ext
    match a with
    | ⟨0, _⟩ => exact lhs_row _ _
    | ⟨1, _⟩ => exact (lhs_col _ _).trans hk
  · funext a
    apply Fin.ext
    match a with
    | ⟨0, _⟩ => exact (rhs_row _ _).trans hk
    | ⟨1, _⟩ => exact rhs_col _ _

/-! ## The body's payload, at an index -/

/-- One product's share at `(r, j)`. -/
def share (x : FVec Ideal S8000x64 .bf16) (w : FVec Ideal S64x64 .bf16) (r : Fin 8000) (j : Fin 64) : EReal :=
  ∑ c : Fin 64, x (ix2 r c) * w (ix2 c j)

/-- What the body stores at `(r, j)`: the four shares added in order, under the leaky rectifier. -/
theorem pay_at (x0 x1 x2 x3 : Vec Ideal S8000x64 .bf16) (w0 w1 w2 w3 : Vec Ideal S64x64 .bf16) (r : Fin 8000) (j : Fin 64) :
    k0_pay1 x0 w0 x1 w1 x2 w2 x3 w3 (ix2 r j)
      = leakyGt (share x0 w0 r j + share x1 w1 r j + share x2 w2 r j + share x3 w3 r j) := by
  unfold k0_pay1
  simp only [shapeCast_self]
  simp only [select_apply, cmpf_apply, mulf_apply, addf_apply, broadcast_apply, matmul_at]
  unfold leakyGt share
  simp only [Ideal.cmpf_def]
  have hzero : (FloatOps.ofBits FTy.f32 0#32 : Ideal .f32) = (0 : EReal) := Ideal.ofBits_zero_f32
  rw [hzero]
  rfl

end Cert.KernelPoint

end
-- ==== Proof.KernelBlocks.lean ====
/-
  The windows' blocks at a grid point, read off the arrays the region finds.

  The kernel's grid has 125 points. At point `t` each gathered table's window, and the output's, holds rows
  `8000 t … 8000 t + 7999` of its million-row array (all 64 columns), and each folded product's window holds its whole
  64×64 array. A block's coordinate is always index × size + the coordinate inside the block, so with the index maps
  decided over the grid once, row `r` of block `t` is row `8000 t + r` of the array.
-/
import proofs.«429126_j58815282152047_1_alg».proof.Proof.Gen.KernelIdeal.Frame
import proofs.«429126_j58815282152047_1_alg».proof.Proof.EdgeScore
import Idealize.ShloMosaic.Lib.Pipeline.Value
import Idealize.ShloMosaic.Lib.ValueIdx

noncomputable section

namespace Cert.KernelBlocks

open Cert.KernelIdeal Cert.KernelIdeal.Gen
open Idealize.ShloMosaic Idealize.ShloMosaic.TcCoe Idealize.SL.Sem
open Idealize.ShloMosaic.Pipeline (Dat)
open Idealize.ShloMosaic.ValueIdx Cert.EdgeScore

variable (m : (ℓ : Loc nD τ sig) → Buf (Elt Ideal) ℓ)

/-- The printed index maps, decided over the 125 points: a gathered table's window and the output's window sit at
    block row `t`, a folded product's window at the one block there is. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- Row `r` of point `t`'s block is edge `8000 t + r`. -/
def edge (t : Fin cfg0.N) (r : Fin 8000) : Fin 1000000 :=
  ⟨8000 * t.val + r.val, by have := t.isLt; have h : cfg0.N = 125 := N_0; omega⟩

/-- Window 0's block at point `t`, read off ANY contents `X` of its array: rows `8000 t …`. -/
theorem gread0 (c : Dev nD) (X : Buf (Elt Ideal) ((c : Thread nD τ).loc (Pipeline.arrRef spec0 0))) (t : Fin cfg0.N) (r : Fin 8000) (a : Fin 64) :
    (((cfg0.win 0).blk t).view.read (Elt Ideal) X : Vec Ideal S8000x64 .bf16) (ix2 r a) = (X : SOut.Idx → EReal) (ix2 (edge t r) a) := by
  rw [View.read_apply]
  refine congrArg (X : SOut.Idx → EReal) ?_
  funext b
  apply Fin.ext
  obtain ⟨e0, e1⟩ := (idx_facts t).1
  match b with
  | ⟨0, _⟩ => show win0_0.index t (0 : Fin 2) * 8000 + 1 * r.val = 8000 * t.val + r.val; rw [e0]; omega
  | ⟨1, _⟩ => show win0_0.index t (1 : Fin 2) * 64 + 1 * a.val = a.val; rw [e1]; omega

/-- A gathered table's block at point `t` is rows `8000 t …` of the table as the region finds it. -/
theorem gblk0 (c : Dev nD) (t : Fin cfg0.N) (r : Fin 8000) (a : Fin 64) :
    (iblk m c 0 t : Vec Ideal S8000x64 .bf16) (ix2 r a) = (V m c main_v21 : SOut.Idx → EReal) (ix2 (edge t r) a) := by
  unfold iblk
  exact gread0 c (V m c (Pipeline.arrRef spec0 0)) t r a

/-- Window 1's block at point `t`, read off ANY contents `X` of its array: rows `8000 t …`. -/
theorem gread1 (c : Dev nD) (X : Buf (Elt Ideal) ((c : Thread nD τ).loc (Pipeline.arrRef spec0 1))) (t : Fin cfg0.N) (r : Fin 8000) (a : Fin 64) :
    (((cfg0.win 1).blk t).view.read (Elt Ideal) X : Vec Ideal S8000x64 .bf16) (ix2 r a) = (X : SOut.Idx → EReal) (ix2 (edge t r) a) := by
  rw [View.read_apply]
  refine congrArg (X : SOut.Idx → EReal) ?_
  funext b
  apply Fin.ext
  obtain ⟨e0, e1⟩ := (idx_facts t).2.1
  match b with
  | ⟨0, _⟩ => show win0_1.index t (0 : Fin 2) * 8000 + 1 * r.val = 8000 * t.val + r.val; rw [e0]; omega
  | ⟨1, _⟩ => show win0_1.index t (1 : Fin 2) * 64 + 1 * a.val = a.val; rw [e1]; omega

/-- A gathered table's block at point `t` is rows `8000 t …` of the table as the region finds it. -/
theorem gblk1 (c : Dev nD) (t : Fin cfg0.N) (r : Fin 8000) (a : Fin 64) :
    (iblk m c 1 t : Vec Ideal S8000x64 .bf16) (ix2 r a) = (V m c main_v23 : SOut.Idx → EReal) (ix2 (edge t r) a) := by
  unfold iblk
  exact gread1 c (V m c (Pipeline.arrRef spec0 1)) t r a

/-- Window 2's block at point `t`, read off ANY contents `X` of its array: rows `8000 t …`. -/
theorem gread2 (c : Dev nD) (X : Buf (Elt Ideal) ((c : Thread nD τ).loc (Pipeline.arrRef spec0 2))) (t : Fin cfg0.N) (r : Fin 8000) (a : Fin 64) :
    (((cfg0.win 2).blk t).view.read (Elt Ideal) X : Vec Ideal S8000x64 .bf16) (ix2 r a) = (X : SOut.Idx → EReal) (ix2 (edge t r) a) := by
  rw [View.read_apply]
  refine congrArg (X : SOut.Idx → EReal) ?_
  funext b
  apply Fin.ext
  obtain ⟨e0, e1⟩ := (idx_facts t).2.2.1
  match b with
  | ⟨0, _⟩ => show win0_2.index t (0 : Fin 2) * 8000 + 1 * r.val = 8000 * t.val + r.val; rw [e0]; omega
  | ⟨1, _⟩ => show win0_2.index t (1 : Fin 2) * 64 + 1 * a.val = a.val; rw [e1]; omega

/-- A gathered table's block at point `t` is rows `8000 t …` of the table as the region finds it. -/
theorem gblk2 (c : Dev nD) (t : Fin cfg0.N) (r : Fin 8000) (a : Fin 64) :
    (iblk m c 2 t : Vec Ideal S8000x64 .bf16) (ix2 r a) = (V m c main_v25 : SOut.Idx → EReal) (ix2 (edge t r) a) := by
  unfold iblk
  exact gread2 c (V m c (Pipeline.arrRef spec0 2)) t r a

/-- Window 3's block at point `t`, read off ANY contents `X` of its array: rows `8000 t …`. -/
theorem gread3 (c : Dev nD) (X : Buf (Elt Ideal) ((c : Thread nD τ).loc (Pipeline.arrRef spec0 3))) (t : Fin cfg0.N) (r : Fin 8000) (a : Fin 64) :
    (((cfg0.win 3).blk t).view.read (Elt Ideal) X : Vec Ideal S8000x64 .bf16) (ix2 r a) = (X : SOut.Idx → EReal) (ix2 (edge t r) a) := by
  rw [View.read_apply]
  refine congrArg (X : SOut.Idx → EReal) ?_
  funext b
  apply Fin.ext
  obtain ⟨e0, e1⟩ := (idx_facts t).2.2.2.1
  match b with
  | ⟨0, _⟩ => show win0_3.index t (0 : Fin 2) * 8000 + 1 * r.val = 8000 * t.val + r.val; rw [e0]; omega
  | ⟨1, _⟩ => show win0_3.index t (1 : Fin 2) * 64 + 1 * a.val = a.val; rw [e1]; omega

/-- A gathered table's block at point `t` is rows `8000 t …` of the table as the region finds it. -/
theorem gblk3 (c : Dev nD) (t : Fin cfg0.N) (r : Fin 8000) (a : Fin 64) :
    (iblk m c 3 t : Vec Ideal S8000x64 .bf16) (ix2 r a) = (V m c main_v27 : SOut.Idx → EReal) (ix2 (edge t r) a) := by
  unfold iblk
  exact gread3 c (V m c (Pipeline.arrRef spec0 3)) t r a

/-- Window 4's block, read off ANY contents `X` of its array: the whole 64×64 array, at every point. -/
theorem wread4 (c : Dev nD) (X : Buf (Elt Ideal) ((c : Thread nD τ).loc (Pipeline.arrRef spec0 4))) (t : Fin cfg0.N) (a j : Fin 64) :
    (((cfg0.win 4).blk t).view.read (Elt Ideal) X : Vec Ideal S64x64 .bf16) (ix2 a j) = (X : SProj.Idx → EReal) (ix2 a j) := by
  rw [View.read_apply]
  refine congrArg (X : SProj.Idx → EReal) ?_
  funext b
  apply Fin.ext
  obtain ⟨e0, e1⟩ := (idx_facts t).2.2.2.2.1
  match b with
  | ⟨0, _⟩ => show win0_4.index t (0 : Fin 2) * 64 + 1 * a.val = a.val; rw [e0]; omega
  | ⟨1, _⟩ => show win0_4.index t (1 : Fin 2) * 64 + 1 * j.val = j.val; rw [e1]; omega

/-- A folded product's block is the whole product, at every point. -/
theorem wblk4 (c : Dev nD) (t : Fin cfg0.N) (a j : Fin 64) :
    (iblk m c 4 t : Vec Ideal S64x64 .bf16) (ix2 a j) = (V m c main_v5 : SProj.Idx → EReal) (ix2 a j) := by
  unfold iblk
  exact wread4 c (V m c (Pipeline.arrRef spec0 4)) t a j

/-- Window 5's block, read off ANY contents `X` of its array: the whole 64×64 array, at every point. -/
theorem wread5 (c : Dev nD) (X : Buf (Elt Ideal) ((c : Thread nD τ).loc (Pipeline.arrRef spec0 5))) (t : Fin cfg0.N) (a j : Fin 64) :
    (((cfg0.win 5).blk t).view.read (Elt Ideal) X : Vec Ideal S64x64 .bf16) (ix2 a j) = (X : SProj.Idx → EReal) (ix2 a j) := by
  rw [View.read_apply]
  refine congrArg (X : SProj.Idx → EReal) ?_
  funext b
  apply Fin.ext
  obtain ⟨e0, e1⟩ := (idx_facts t).2.2.2.2.2.1
  match b with
  | ⟨0, _⟩ => show win0_5.index t (0 : Fin 2) * 64 + 1 * a.val = a.val; rw [e0]; omega
  | ⟨1, _⟩ => show win0_5.index t (1 : Fin 2) * 64 + 1 * j.val = j.val; rw [e1]; omega

/-- A folded product's block is the whole product, at every point. -/
theorem wblk5 (c : Dev nD) (t : Fin cfg0.N) (a j : Fin 64) :
    (iblk m c 5 t : Vec Ideal S64x64 .bf16) (ix2 a j) = (V m c main_v7 : SProj.Idx → EReal) (ix2 a j) := by
  unfold iblk
  exact wread5 c (V m c (Pipeline.arrRef spec0 5)) t a j

/-- Window 6's block, read off ANY contents `X` of its array: the whole 64×64 array, at every point. -/
theorem wread6 (c : Dev nD) (X : Buf (Elt Ideal) ((c : Thread nD τ).loc (Pipeline.arrRef spec0 6))) (t : Fin cfg0.N) (a j : Fin 64) :
    (((cfg0.win 6).blk t).view.read (Elt Ideal) X : Vec Ideal S64x64 .bf16) (ix2 a j) = (X : SProj.Idx → EReal) (ix2 a j) := by
  rw [View.read_apply]
  refine congrArg (X : SProj.Idx → EReal) ?_
  funext b
  apply Fin.ext
  obtain ⟨e0, e1⟩ := (idx_facts t).2.2.2.2.2.2.1
  match b with
  | ⟨0, _⟩ => show win0_6.index t (0 : Fin 2) * 64 + 1 * a.val = a.val; rw [e0]; omega
  | ⟨1, _⟩ => show win0_6.index t (1 : Fin 2) * 64 + 1 * j.val = j.val; rw [e1]; omega

/-- A folded product's block is the whole product, at every point. -/
theorem wblk6 (c : Dev nD) (t : Fin cfg0.N) (a j : Fin 64) :
    (iblk m c 6 t : Vec Ideal S64x64 .bf16) (ix2 a j) = (V m c main_v9 : SProj.Idx → EReal) (ix2 a j) := by
  unfold iblk
  exact wread6 c (V m c (Pipeline.arrRef spec0 6)) t a j

/-- Window 7's block, read off ANY contents `X` of its array: the whole 64×64 array, at every point. -/
theorem wread7 (c : Dev nD) (X : Buf (Elt Ideal) ((c : Thread nD τ).loc (Pipeline.arrRef spec0 7))) (t : Fin cfg0.N) (a j : Fin 64) :
    (((cfg0.win 7).blk t).view.read (Elt Ideal) X : Vec Ideal S64x64 .bf16) (ix2 a j) = (X : SProj.Idx → EReal) (ix2 a j) := by
  rw [View.read_apply]
  refine congrArg (X : SProj.Idx → EReal) ?_
  funext b
  apply Fin.ext
  obtain ⟨e0, e1⟩ := (idx_facts t).2.2.2.2.2.2.2.1
  match b with
  | ⟨0, _⟩ => show win0_7.index t (0 : Fin 2) * 64 + 1 * a.val = a.val; rw [e0]; omega
  | ⟨1, _⟩ => show win0_7.index t (1 : Fin 2) * 64 + 1 * j.val = j.val; rw [e1]; omega

/-- A folded product's block is the whole product, at every point. -/
theorem wblk7 (c : Dev nD) (t : Fin cfg0.N) (a j : Fin 64) :
    (iblk m c 7 t : Vec Ideal S64x64 .bf16) (ix2 a j) = (V m c main_v11 : SProj.Idx → EReal) (ix2 a j) := by
  unfold iblk
  exact wread7 c (V m c (Pipeline.arrRef spec0 7)) t a j

end Cert.KernelBlocks

end
-- ==== Proof.KernelValue.lean ====
/-
  The kernel's result array, read off its run.

  At grid point `t` the body stores, at row `r` and column `j` of its block, the leaky rectifier (in its `a > 0`
  spelling) of four shares `Σ_c x_s[r, c] · w_s[c, j]` added in order. Row `r` of block `t` of a gathered table is what
  edge `8000 t + r` gathers, and the folded product is `Σ_d P_s[c, d] · W[64 s + d, j]`: so each share is one column's
  term of the kernel's grouping of the score, and for finite arguments the stored value is the score itself. The 125
  blocks tile the million rows (row `i` lies in block `i / 8000`), so the array ends at the score.
-/
import proofs.«429126_j58815282152047_1_alg».proof.Proof.Gen.KernelIdeal.Value
import proofs.«429126_j58815282152047_1_alg».proof.Proof.KernelHost
import proofs.«429126_j58815282152047_1_alg».proof.Proof.KernelPoint
import proofs.«429126_j58815282152047_1_alg».proof.Proof.KernelBlocks
import Idealize.ShloMosaic.Lib.Pipeline.Value
import Idealize.ShloMosaic.Lib.ValueIdx

noncomputable section

namespace Cert.KernelValue

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx Cert.EdgeScore Cert.KernelHost Cert.KernelPoint Cert.KernelBlocks

variable (m : (ℓ : Loc nD τ sig) → Buf (Elt Ideal) ℓ) (ρ : Dev nD → PrngReg)

theorem hz : (![0, 0] : Fin 2 → Nat) = fun _ => 0 := funext fun a => by fin_cases a <;> rfl

/-! ## One share is one column's term of the kernel's grouping -/

/-- The score of the launch contents of the eight arguments. -/
abbrev result (c : Dev nD) : SOut.Idx → EReal :=
  score (taxPayer m c) (person m c) (item m c) (adj m c) (pCompany m c) (pPerson m c) (pItem m c) (weight m c)

/-- What the claim's precondition gives of the arguments on core `c`. -/
abbrev Good (c : Dev nD) : Prop :=
  Finite (taxPayer m c) ∧ Finite (person m c) ∧ Finite (item m c) ∧ Finite (pCompany m c) ∧ Finite (pPerson m c)
    ∧ Finite (pItem m c) ∧ Finite (weight m c) ∧ InRange (adj m c)

theorem share0 (c : Dev nD) (hr : InRange (adj m c)) (t : Fin cfg0.N) (r : Fin 8000) (j : Fin 64) :
    share (iblk m c 0 t) (iblk m c 4 t) r j
      = foldTerm (gathered (taxPayer m c) (person m c) (item m c) (adj m c) (edge t r) 0)
          (fun a d => proj (pCompany m c) (pPerson m c) (pItem m c) 0 (ix2 a d)) (fun d => weight m c (ix2 (wrow 0 d) j)) := by
  unfold share foldTerm
  refine Finset.sum_congr rfl fun a _ => ?_
  rw [gblk0 m c t r a, wblk4 m c t a j, gath0 m c hr (edge t r) a, fold0 m c a j]
  rfl

theorem share1 (c : Dev nD) (hr : InRange (adj m c)) (t : Fin cfg0.N) (r : Fin 8000) (j : Fin 64) :
    share (iblk m c 1 t) (iblk m c 5 t) r j
      = foldTerm (gathered (taxPayer m c) (person m c) (item m c) (adj m c) (edge t r) 1)
          (fun a d => proj (pCompany m c) (pPerson m c) (pItem m c) 1 (ix2 a d)) (fun d => weight m c (ix2 (wrow 1 d) j)) := by
  unfold share foldTerm
  refine Finset.sum_congr rfl fun a _ => ?_
  rw [gblk1 m c t r a, wblk5 m c t a j, gath1 m c hr (edge t r) a, fold1 m c a j]
  rfl

theorem share2 (c : Dev nD) (hr : InRange (adj m c)) (t : Fin cfg0.N) (r : Fin 8000) (j : Fin 64) :
    share (iblk m c 2 t) (iblk m c 6 t) r j
      = foldTerm (gathered (taxPayer m c) (person m c) (item m c) (adj m c) (edge t r) 2)
          (fun a d => proj (pCompany m c) (pPerson m c) (pItem m c) 2 (ix2 a d)) (fun d => weight m c (ix2 (wrow 2 d) j)) := by
  unfold share foldTerm
  refine Finset.sum_congr rfl fun a _ => ?_
  rw [gblk2 m c t r a, wblk6 m c t a j, gath2 m c hr (edge t r) a, fold2 m c a j]
  rfl

theorem share3 (c : Dev nD) (hr : InRange (adj m c)) (t : Fin cfg0.N) (r : Fin 8000) (j : Fin 64) :
    share (iblk m c 3 t) (iblk m c 7 t) r j
      = foldTerm (gathered (taxPayer m c) (person m c) (item m c) (adj m c) (edge t r) 3)
          (fun a d => proj (pCompany m c) (pPerson m c) (pItem m c) 3 (ix2 a d)) (fun d => weight m c (ix2 (wrow 3 d) j)) := by
  unfold share foldTerm
  refine Finset.sum_congr rfl fun a _ => ?_
  rw [gblk3 m c t r a, wblk7 m c t a j, gath3 m c hr (edge t r) a, fold3 m c a j]
  rfl

/-! ## From blocks to the array -/

/-- WHAT POINT `t` WRITES BACK is block `t` of the score of the arguments. -/
theorem flushed_eq (c : Dev nD) (hgood : Good m c) (t : Fin cfg0.N) :
    (dats m 0 c).flushed 8 t = ((cfg0.win 8).blk t).view.read (Elt Ideal) (result m c) := by
  obtain ⟨hT0, hT1, hT2, hP0, hP1, hP2, hW, hr⟩ := hgood
  rw [flushed8]
  unfold out0_8
  rw [View.canon_unit_zero hz]
  simp only [View.ld_unit_zero (S := S8000x64) hz, View.ld_unit_zero (S := S64x64) hz]
  funext y
  obtain ⟨r, j, rfl⟩ : ∃ (r : Fin 8000) (j : Fin 64), y = ix2 r j := ⟨y 0, y 1, eq_ix2 y⟩
  show k0_pay1 (iblk m c 0 t) (iblk m c 4 t) (iblk m c 1 t) (iblk m c 5 t) (iblk m c 2 t) (iblk m c 6 t) (iblk m c 3 t) (iblk m c 7 t) (ix2 r j)
    = result m c (((cfg0.win 8).blk t).view.emb (ix2 r j))
  have hemb : ((cfg0.win 8).blk t).view.emb (ix2 r j) = (ix2 (edge t r) j : SOut.Idx) := by
    funext b
    apply Fin.ext
    obtain ⟨-, -, -, -, -, -, -, -, ⟨e0, e1⟩⟩ := idx_facts t
    match b with
    | ⟨0, _⟩ => show win0_8.index t (0 : Fin 2) * 8000 + 1 * r.val = 8000 * t.val + r.val; rw [e0]; omega
    | ⟨1, _⟩ => show win0_8.index t (1 : Fin 2) * 64 + 1 * j.val = j.val; rw [e1]; omega
  rw [hemb]
  refine (pay_at (iblk m c 0 t) (iblk m c 1 t) (iblk m c 2 t) (iblk m c 3 t) (iblk m c 4 t) (iblk m c 5 t) (iblk m c 6 t) (iblk m c 7 t) r j).trans ?_
  rw [share0 m c hr t r j, share1 m c hr t r j, share2 m c hr t r j, share3 m c hr t r j]
  exact leakyGt_preFoldAt (taxPayer m c) (person m c) (item m c) (adj m c) (pCompany m c) (pPerson m c) (pItem m c) (weight m c)
    hT0 hT1 hT2 hP0 hP1 hP2 hW (edge t r) j

/-- An index of the array is in point `t`'s block iff each coordinate is in the block's range on its axis. -/
theorem mem_blk (t : Fin cfg0.N) (i : S1000000x64.Idx) :
    i ∈ ((cfg0.win 8).blk t).view.set ↔ ∀ a : Fin 2, win0_8.index t a * S8000x64.size a ≤ (i a).val ∧ (i a).val < win0_8.index t a * S8000x64.size a + S8000x64.size a := by
  show i ∈ ((View.whole main_v28).slice (win0_8.rect t)).set ↔ _
  rw [View.set_slice_whole, Rect.mem_set_unit]
  exact Iff.rfl

/-- Every index of the array lies in some point's block: row `i` in block `i / 8000`. -/
theorem cover (i : S1000000x64.Idx) : ∃ t : Fin cfg0.N, (cfg0.win 8).flush t = true ∧ i ∈ ((cfg0.win 8).blk t).view.set := by
  have hN : cfg0.N = 125 := N_0
  have hi0 : (i 0).val < 1000000 := (i 0).isLt
  have hi1 : (i 1).val < 64 := (i 1).isLt
  refine ⟨⟨(i 0).val / 8000, by omega⟩, flush0_8 _, ?_⟩
  rw [mem_blk]
  obtain ⟨-, -, -, -, -, -, -, -, ⟨e0, e1⟩⟩ := idx_facts ⟨(i 0).val / 8000, by omega⟩
  intro a
  match a with
  | ⟨0, _⟩ =>
    show win0_8.index ⟨(i 0).val / 8000, _⟩ (0 : Fin 2) * 8000 ≤ (i 0).val ∧ (i 0).val < win0_8.index ⟨(i 0).val / 8000, _⟩ (0 : Fin 2) * 8000 + 8000
    rw [e0]; simp only; omega
  | ⟨1, _⟩ =>
    show win0_8.index ⟨(i 0).val / 8000, _⟩ (1 : Fin 2) * 64 ≤ (i 1).val ∧ (i 1).val < win0_8.index ⟨(i 0).val / 8000, _⟩ (1 : Fin 2) * 64 + 64
    rw [e1]; omega

/-- THE ARRAY after the run is the score of the arguments. -/
theorem final (c : Dev nD) (hgood : Good m c) : (dats m 0 c).arrAt 8 cfg0.N = result m c :=
  (dats m 0 c).arrAt_eq_of_cover 8 (result m c) (fun t _ => flushed_eq m c hgood t) cover

/-- The kernel's run, read: the result array at the score of the launch contents of the arguments, the arguments
    unchanged. -/
theorem run (hgood : ∀ c, Good m c) :
    θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hgood c)), (h c).2⟩) (run_blocks m ρ)

end Cert.KernelValue

end
-- ==== Proof.lean ====
/-
  The certificate: an edge-score kernel against its reference, over the extended reals.

  Both programs score a million edges of a four-column adjacency table. Column `s` of edge `e` names a row of a node
  table (tax payer for columns 0 and 1, person for 2, item for 3), read as NumPy reads an index — a negative one
  wraps by the table's 50000 rows. The REFERENCE projects each table by its 64×64 matrix, gathers the four rows,
  concatenates them to 256 columns, multiplies by the 256×64 weight and applies the leaky rectifier (`a ≥ 0`).
  The KERNEL folds each projection into its 64-row slice of the weight first (four 64×64 products), gathers the raw
  table rows — filling a row whose index is out of range with a not-a-number —, and in one pass over blocks of 8000
  edges multiplies the gathered blocks by the folded products, adds the four, and applies the rectifier (`a > 0`).

  Where the two agree: on indices a NumPy index may take, `-50000 ≤ v < 50000` (outside it the reference itself
  indexes out of range, clamping, while the kernel fills: the precondition carries this range), the kernel's fill never
  happens and both gather the same rows; and for finite entries `Σ_d (Σ_c g_c · P_cd) · W_d = Σ_c g_c · (Σ_d P_cd · W_d)`,
  a finite sum of products of reals regrouped and exchanged (on the extended reals this needs the entries finite). The two
  rectifiers differ only at `0`, where both give `0`. A change of float format is the identity there.

  The frames of the two kernel programs are the generated ones; the reference's is its run with the result dropped;
  the idealization rewrote no operation.
-/
import proofs.«429126_j58815282152047_1_alg».proof.Defs
import proofs.«429126_j58815282152047_1_alg».proof.Proof.Gen.Kernel
import proofs.«429126_j58815282152047_1_alg».proof.Proof.Gen.Kernel.Skeleton
import proofs.«429126_j58815282152047_1_alg».proof.Proof.Gen.Kernel.Launch
import proofs.«429126_j58815282152047_1_alg».proof.Proof.Gen.Kernel.Points
import proofs.«429126_j58815282152047_1_alg».proof.Proof.Gen.Kernel.Frame
import proofs.«429126_j58815282152047_1_alg».proof.Proof.Gen.KernelIdeal
import proofs.«429126_j58815282152047_1_alg».proof.Proof.Gen.KernelIdeal.Skeleton
import proofs.«429126_j58815282152047_1_alg».proof.Proof.Gen.KernelIdeal.Launch
import proofs.«429126_j58815282152047_1_alg».proof.Proof.Gen.KernelIdeal.Points
import proofs.«429126_j58815282152047_1_alg».proof.Proof.Gen.KernelIdeal.Frame
import proofs.«429126_j58815282152047_1_alg».proof.Proof.Gen.KernelIdeal.Value
import proofs.«429126_j58815282152047_1_alg».proof.Proof.Gen.ReferenceIdeal
import proofs.«429126_j58815282152047_1_alg».proof.Proof.Gen.Pre_finite_inputs
import proofs.«429126_j58815282152047_1_alg».proof.Proof.PreFacts
import proofs.«429126_j58815282152047_1_alg».proof.Proof.RefValue
import proofs.«429126_j58815282152047_1_alg».proof.Proof.KernelValue
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.RefValue.run m ρ)

/-- What the precondition gives of the kernel's arguments on every core: finite floats, indices in range. -/
theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelValue.Good m c :=
  Cert.PreFacts.of_pre _ _ _ _ _ _ _ _ (h c)

/-- From memories agreeing on the arguments both programs end with the score of those arguments: the kernel's array
    block by block over the kernel's grouping, the reference's by its own operations, one function of the arguments. -/
theorem algebraic : Cert.algebraic_KernelIdeal_ReferenceIdeal := by
  intro m ρ m' ρ' hpre hagree
  refine ⟨fun c => Cert.KernelValue.result m c, Cert.KernelValue.run m ρ (good_of_pre m hpre), ?_⟩
  refine (θ_run Cert.ReferenceIdeal.defs _ _).mono (fun _ h c => ⟨(h c).1.trans ?_, (h c).2⟩) (Cert.RefValue.run m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
